-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S3072x1024 : Shape := ⟨2, ![3072, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_

variable [Facts]

def fn {F : FTy → Type} [FloatOps F] (main_arg0 : FVec F S2x2048x1024 .f32) (main_arg1 : FVec F S3072x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  main_v8
-- ==== Kernel.lean ====
abbrev S2x2048x1024 : Shape := ⟨3, ![2, 2048, 1024]⟩
abbrev S3072x1024 : Shape := ⟨2, ![3072, 1024]⟩
abbrev S16x3x64x1024 : Shape := ⟨4, ![16, 3, 64, 1024]⟩
abbrev S3x16x64x1024 : Shape := ⟨4, ![3, 16, 64, 1024]⟩
abbrev S1x512x1024 : Shape := ⟨3, ![1, 512, 1024]⟩
abbrev S512x1024 : Shape := ⟨2, ![512, 1024]⟩
abbrev S512x3072 : Shape := ⟨2, ![512, 3072]⟩
abbrev S1x256x128 : Shape := ⟨3, ![1, 256, 128]⟩
abbrev S1x2048x128 : Shape := ⟨3, ![1, 2048, 128]⟩
abbrev S256x128 : Shape := ⟨2, ![256, 128]⟩
abbrev S2048x128 : Shape := ⟨2, ![2048, 128]⟩
abbrev S256x64 : Shape := ⟨2, ![256, 64]⟩
abbrev S2048x64 : Shape := ⟨2, ![2048, 64]⟩
abbrev S256x2048 : Shape := ⟨2, ![256, 2048]⟩
abbrev S256 : Shape := ⟨1, ![256]⟩
abbrev S256x1 : Shape := ⟨2, ![256, 1]⟩

abbrev nBuf : Space → Nat
  | .hbm => 10
  | .vmem => 17
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S16x3x64x1024, .f32⟩
  | .hbm, ⟨3, _⟩ => ⟨S3x16x64x1024, .f32⟩
  | .hbm, ⟨4, _⟩ => ⟨S3072x1024, .f32⟩
  | .hbm, ⟨5, _⟩ => ⟨S3072x1024, .bf16⟩
  | .hbm, ⟨6, _⟩ => ⟨S2x2048x1024, .bf16⟩
  | .hbm, ⟨7, _⟩ => ⟨S2x2048x1024, .bf16⟩
  | .hbm, ⟨8, _⟩ => ⟨S2x2048x1024, .bf16⟩
  | .hbm, ⟨9, _⟩ => ⟨S2x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S3072x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x256x128, .bf16⟩
  | .local _ .vmem, ⟨10, _⟩ => ⟨S1x256x128, .bf16⟩
  | .local _ .vmem, ⟨11, _⟩ => ⟨S1x2048x128, .bf16⟩
  | .local _ .vmem, ⟨12, _⟩ => ⟨S1x2048x128, .bf16⟩
  | .local _ .vmem, ⟨13, _⟩ => ⟨S1x2048x128, .bf16⟩
  | .local _ .vmem, ⟨14, _⟩ => ⟨S1x2048x128, .bf16⟩
  | .local _ .vmem, ⟨15, _⟩ => ⟨S1x256x128, .f32⟩
  | .local _ .vmem, ⟨16, _⟩ => ⟨S1x256x128, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev main_v4_2 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨3, ![2, 8, 8], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x256x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

class Facts₀ : Prop where
  shapeCasts_S3072x1024_S16x3x64x1024 : S3072x1024.ShapeCasts S16x3x64x1024
  transposes_S16x3x64x1024_S3x16x64x1024_1_0_2_3 : S16x3x64x1024.Transposes [1, 0, 2, 3] S3x16x64x1024
  shapeCasts_S3x16x64x1024_S3072x1024 : S3x16x64x1024.ShapeCasts S3072x1024
  bitsLt_bf16_f32 : FTy.bits .bf16 < FTy.bits .f32
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  slices_S512x3072_o0_0_S512x1024 : S512x3072.Slices ![0, 0] S512x1024
  shapeCasts_S512x1024_S1x512x1024 : S512x1024.ShapeCasts S1x512x1024
  packedbf16_S1x512x1024_S1x512x1024_0_0_0 : (Rect.unit (s := S1x512x1024) ![0, 0, 0] S1x512x1024.size inb_S1x512x1024_S1x512x1024_0_0_0).PackedRows (EltTy.packing .bf16)
  slices_S512x3072_o0_1024_S512x1024 : S512x3072.Slices ![0, 1024] S512x1024
  slices_S512x3072_o0_2048_S512x1024 : S512x3072.Slices ![0, 2048] S512x1024
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  slices_S256x128_o0_0_S256x64 : S256x128.Slices ![0, 0] S256x64
  slices_S2048x128_o0_0_S2048x64 : S2048x128.Slices ![0, 0] S2048x64
  reduces_S256x2048_S256 : S256x2048.Reduces [1] S256
  shapeCasts_S256_S256x1 : S256.ShapeCasts S256x1
  broadcasts_S256x1_S256x2048 : S256x1.Broadcasts S256x2048
  broadcasts_S256x1_S256x64 : S256x1.Broadcasts S256x64
  slices_S256x128_o0_64_S256x64 : S256x128.Slices ![0, 64] S256x64
  slices_S2048x128_o0_64_S2048x64 : S2048x128.Slices ![0, 64] S2048x64
  concatenates_S256x64_S256x64_S256x128_d1 : Shape.Concatenates [S256x64, S256x64] S256x128 1
  shapeCasts_S256x128_S1x256x128 : S256x128.ShapeCasts S1x256x128
  dot_S512x1024_S3072x1024_S512x3072_1_1_0_0_n_n_wf : DotDims.WF S512x1024 S3072x1024 S512x3072 [1] [1] [0] [0] [] []
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S2x2048x1024.size a
  hwx0_0 : ∀ i : grid0.Coords, EltTy.bits .f32 = 32 ∨ (Rect.block (s := S2x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .bf16 = 32 ∨ (Rect.block (s := S3072x1024) S3072x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S2x2048x1024.size a
  hwx0_2 : ∀ i : grid0.Coords, EltTy.bits .bf16 = 32 ∨ (Rect.block (s := S2x2048x1024) S1x512x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S2x2048x1024.size a
  hwx0_3 : ∀ i : grid0.Coords, EltTy.bits .bf16 = 32 ∨ (Rect.block (s := S2x2048x1024) S1x512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1024.size a ≤ S2x2048x1024.size a
  hwx0_4 : ∀ i : grid0.Coords, EltTy.bits .bf16 = 32 ∨ (Rect.block (s := S2x2048x1024) S1x512x1024.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x128.size a ≤ S2x2048x1024.size a
  hwx1_0 : ∀ i : grid1.Coords, EltTy.bits .bf16 = 32 ∨ (Rect.block (s := S2x2048x1024) S1x256x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x128.size a ≤ S2x2048x1024.size a
  hwx1_1 : ∀ i : grid1.Coords, EltTy.bits .bf16 = 32 ∨ (Rect.block (s := S2x2048x1024) S1x2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x128.size a ≤ S2x2048x1024.size a
  hwx1_2 : ∀ i : grid1.Coords, EltTy.bits .bf16 = 32 ∨ (Rect.block (s := S2x2048x1024) S1x2048x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x128.size a ≤ S2x2048x1024.size a
  hwx1_3 : ∀ i : grid1.Coords, EltTy.bits .f32 = 32 ∨ (Rect.block (s := S2x2048x1024) S1x256x128.size (cc1_transform_3 i) (hinb1_3 i)).WholeWords (EltTy.packing .f32)

variable [Facts₀]

def dot_S512x1024_S3072x1024_S512x3072_1_1_0_0_n_n : DotDims S512x1024 S3072x1024 S512x3072 where
  lhsContracting := [1]
  rhsContracting := [1]
  lhsNonContracting := [0]
  rhsNonContracting := [0]
  lhsBatch := []
  rhsBatch := []
  wf := dot_S512x1024_S3072x1024_S512x3072_1_1_0_0_n_n_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4_0) S1x512x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4_1) S1x512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_2) S1x512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v4_0) S1x256x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_1) S1x2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4_2) S1x2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x256x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S2x2048x1024 : Shape := ⟨3, ![2, 2048, 1024]⟩
abbrev S3072x1024 : Shape := ⟨2, ![3072, 1024]⟩
abbrev S2x2048x3072 : Shape := ⟨3, ![2, 2048, 3072]⟩
abbrev S2x2048x16x3x64 : Shape := ⟨5, ![2, 2048, 16, 3, 64]⟩
abbrev S3x2x16x2048x64 : Shape := ⟨5, ![3, 2, 16, 2048, 64]⟩
abbrev S1x2x16x2048x64 : Shape := ⟨5, ![1, 2, 16, 2048, 64]⟩
abbrev S2x16x2048x64 : Shape := ⟨4, ![2, 16, 2048, 64]⟩
abbrev S_ : Shape := ⟨0, ![]⟩
abbrev S2x16x2048x2048 : Shape := ⟨4, ![2, 16, 2048, 2048]⟩
abbrev S2x16x2048 : Shape := ⟨3, ![2, 16, 2048]⟩
abbrev S2x16x2048x1 : Shape := ⟨4, ![2, 16, 2048, 1]⟩
abbrev S2x2048x16x64 : Shape := ⟨4, ![2, 2048, 16, 64]⟩

abbrev nBuf : Space → Nat
  | .hbm => 35
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S2x2048x3072, .f32⟩
  | .hbm, ⟨3, _⟩ => ⟨S2x2048x16x3x64, .f32⟩
  | .hbm, ⟨4, _⟩ => ⟨S3x2x16x2048x64, .f32⟩
  | .hbm, ⟨5, _⟩ => ⟨S1x2x16x2048x64, .f32⟩
  | .hbm, ⟨6, _⟩ => ⟨S2x16x2048x64, .f32⟩
  | .hbm, ⟨7, _⟩ => ⟨S1x2x16x2048x64, .f32⟩
  | .hbm, ⟨8, _⟩ => ⟨S2x16x2048x64, .f32⟩
  | .hbm, ⟨9, _⟩ => ⟨S1x2x16x2048x64, .f32⟩
  | .hbm, ⟨10, _⟩ => ⟨S2x16x2048x64, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S2x16x2048x2048, .f32⟩
  | .hbm, ⟨16, _⟩ => ⟨S2x16x2048x2048, .f32⟩
  | .hbm, ⟨17, _⟩ => ⟨S2x16x2048x2048, .f32⟩
  | .hbm, ⟨18, _⟩ => ⟨S_, .f32⟩
  | .hbm, ⟨19, _⟩ => ⟨S2x16x2048, .f32⟩
  | .hbm, ⟨20, _⟩ => ⟨S_, .f32⟩
  | .hbm, ⟨21, _⟩ => ⟨S2x16x2048, .f32⟩
  | .hbm, ⟨22, _⟩ => ⟨S2x16x2048, .f32⟩
  | .hbm, ⟨23, _⟩ => ⟨S2x16x2048x1, .f32⟩
  | .hbm, ⟨24, _⟩ => ⟨S2x16x2048x2048, .f32⟩
  | .hbm, ⟨25, _⟩ => ⟨S2x16x2048x2048, .f32⟩
  | .hbm, ⟨26, _⟩ => ⟨S2x16x2048x2048, .f32⟩
  | .hbm, ⟨27, _⟩ => ⟨S_, .f32⟩
  | .hbm, ⟨28, _⟩ => ⟨S2x16x2048, .f32⟩
  | .hbm, ⟨29, _⟩ => ⟨S2x16x2048x1, .f32⟩
  | .hbm, ⟨30, _⟩ => ⟨S2x16x2048x2048, .f32⟩
  | .hbm, ⟨31, _⟩ => ⟨S2x16x2048x2048, .f32⟩
  | .hbm, ⟨32, _⟩ => ⟨S2x16x2048x64, .f32⟩
  | .hbm, ⟨33, _⟩ => ⟨S2x2048x16x64, .f32⟩
  | .hbm, ⟨34, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_3 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]

class Facts₀ : Prop where
  shapeCasts_S2x2048x3072_S2x2048x16x3x64 : S2x2048x3072.ShapeCasts S2x2048x16x3x64
  transposes_S2x2048x16x3x64_S3x2x16x2048x64_3_0_2_1_4 : S2x2048x16x3x64.Transposes [3, 0, 2, 1, 4] S3x2x16x2048x64
  slices_S3x2x16x2048x64_S1x2x16x2048x64_0_0_0_0_0 : S3x2x16x2048x64.Slices ![0, 0, 0, 0, 0] S1x2x16x2048x64
  shapeCasts_S1x2x16x2048x64_S2x16x2048x64 : S1x2x16x2048x64.ShapeCasts S2x16x2048x64
  slices_S3x2x16x2048x64_S1x2x16x2048x64_1_0_0_0_0 : S3x2x16x2048x64.Slices ![1, 0, 0, 0, 0] S1x2x16x2048x64
  slices_S3x2x16x2048x64_S1x2x16x2048x64_2_0_0_0_0 : S3x2x16x2048x64.Slices ![2, 0, 0, 0, 0] S1x2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S3072x1024_S2x2048x3072_2_1_01_0_n_n_wf : DotDims.WF S2x2048x1024 S3072x1024 S2x2048x3072 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S3072x1024_S2x2048x3072_2_1_01_0_n_n : DotDims S2x2048x1024 S3072x1024 S2x2048x3072 where
  lhsContracting := [2]
  rhsContracting := [1]
  lhsNonContracting := [0, 1]
  rhsNonContracting := [0]
  lhsBatch := []
  rhsBatch := []
  wf := dot_S2x2048x1024_S3072x1024_S2x2048x3072_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Attention.lean ====
/-
  Multi-head softmax attention over a fused query/key/value projection, written as functions of the two argument
  arrays over the extended reals: activations `z` of shape [2, 2048, 1024] (batch, token, feature) and a weight `w`
  of shape [3072, 1024] whose rows are ordered (head, q|k|v, lane) with 16 heads of 64 lanes.

  Row `r` of the projection of token (b, n) is `∑ e, z[b,n,e] · w[r,e]`. For head `h` the score of query token `n`
  against key token `m` is the dot product of their 64 projected lanes, scaled by 1/8; the output lane is the
  softmax-weighted average of the value lanes over all 2048 key tokens.

  Two arrangements of the same average are stated, because the two programs compute it differently:
    * `softmaxAvgK`: the weighted sum is formed first and divided ONCE by the normaliser; the scale 1/8 multiplies
      the query lanes before the dot product; the weight rows are first repacked to (q|k|v, head, lane) order.
    * `softmaxAvgR`: every weight is divided by the normaliser and the weighted sum formed afterwards; the scale
      `1 / √64` multiplies the finished dot product; the weight rows are used in their original order.
  That the two agree on real-valued arguments is proved in `AttentionLaw`.
-/
import Idealize.ShloMosaic.PureOps.Ideal
import Idealize.ShloMosaic.Lib.ValueIdx

noncomputable section

open scoped BigOperators

namespace Cert.Attention

open Idealize.ShloMosaic Idealize.ShloMosaic.ValueIdx

/-- Activations: [batch, token, feature]. -/
abbrev Act : Shape := ⟨3, ![2, 2048, 1024]⟩
/-- Weights: [row, feature]. -/
abbrev Wt : Shape := ⟨2, ![3072, 1024]⟩

/-- An array every entry of which is a real number (neither infinity). -/
def RealValued {S : Shape} (x : S.Idx → EReal) : Prop := ∀ i, ∃ r : ℝ, x i = (r : EReal)

/-! ## One row of scores against one lane of values -/

/-- The largest of finitely many extended reals (−∞ for none). -/
def rowMax {n : Nat} (s : Fin n → EReal) : EReal := (Finset.univ : Finset (Fin n)).fold max ⊥ s

/-- The unnormalised softmax weight of entry `m`: `exp (s m − max s)`. -/
def expShift {n : Nat} (s : Fin n → EReal) (m : Fin n) : EReal := Ideal.exp (s m - rowMax s)

/-- The softmax-weighted average of `v`, the weighted sum divided once by the normaliser. -/
def softmaxAvgK (s v : Fin 2048 → EReal) : EReal :=
  Ideal.div (∑ m : Fin 2048, expShift s m * v m) (∑ m : Fin 2048, expShift s m)

/-- The softmax-weighted average of `v`, every weight normalised before the sum. -/
def softmaxAvgR (s v : Fin 2048 → EReal) : EReal :=
  ∑ m : Fin 2048, Ideal.div (expShift s m) (∑ m' : Fin 2048, expShift s m') * v m

/-! ## The projection -/

/-- Row `r` of the projection of token (b, n): `∑ e, x[b,n,e] · w[r,e]`. -/
def proj (x : Act.Idx → EReal) (w : Wt.Idx → EReal) (b : Fin 2) (n : Fin 2048) (r : Fin 3072) : EReal :=
  ∑ e : Fin 1024, x (ix3 b n e) * w (ix2 r e)

/-! ## The first arrangement: repacked rows, scale on the query, one division -/

/-- Row `j·1024 + c`: lane `c` of the `j`-th third (queries, keys, values) of the repacked weight. -/
def third (j : Fin 3) (c : Fin 1024) : Fin 3072 := ⟨j.val * 1024 + c.val, by omega⟩

/-- The original row of repacked row `j·1024 + h·64 + d`: `h·192 + j·64 + d`. -/
def srcRow (r : Fin 3072) : Fin 3072 := ⟨r.val % 1024 / 64 * 192 + r.val / 1024 * 64 + r.val % 64, by omega⟩

/-- The weight with its rows reordered from (head, q|k|v, lane) to (q|k|v, head, lane). -/
def repack (w : Wt.Idx → EReal) : Wt.Idx → EReal := fun i => w (ix2 (srcRow (i 0)) (i 1))

theorem repack_apply (w : Wt.Idx → EReal) (r : Fin 3072) (e : Fin 1024) :
    repack w (ix2 r e) = w (ix2 (srcRow r) e) := rfl

/-- The scaled query array at (b, n, c): the projection's row `c` times the word of 1/8. -/
def qAt (x : Act.Idx → EReal) (wp : Wt.Idx → EReal) (b : Fin 2) (n : Fin 2048) (c : Fin 1024) : EReal :=
  proj x wp b n (third 0 c) * Ideal.ofBits .bf16 0x3E00#16
/-- The key array at (b, n, c): the projection's row `1024 + c`. -/
def kAt (x : Act.Idx → EReal) (wp : Wt.Idx → EReal) (b : Fin 2) (n : Fin 2048) (c : Fin 1024) : EReal :=
  proj x wp b n (third 1 c)
/-- The value array at (b, n, c): the projection's row `2048 + c`. -/
def vAt (x : Act.Idx → EReal) (wp : Wt.Idx → EReal) (b : Fin 2) (n : Fin 2048) (c : Fin 1024) : EReal :=
  proj x wp b n (third 2 c)

def qArr (x : Act.Idx → EReal) (wp : Wt.Idx → EReal) : Act.Idx → EReal := fun i => qAt x wp (i 0) (i 1) (i 2)
def kArr (x : Act.Idx → EReal) (wp : Wt.Idx → EReal) : Act.Idx → EReal := fun i => kAt x wp (i 0) (i 1) (i 2)
def vArr (x : Act.Idx → EReal) (wp : Wt.Idx → EReal) : Act.Idx → EReal := fun i => vAt x wp (i 0) (i 1) (i 2)

theorem qArr_apply (x : Act.Idx → EReal) (wp : Wt.Idx → EReal) (b : Fin 2) (n : Fin 2048) (c : Fin 1024) :
    qArr x wp (ix3 b n c) = qAt x wp b n c := rfl
theorem kArr_apply (x : Act.Idx → EReal) (wp : Wt.Idx → EReal) (b : Fin 2) (n : Fin 2048) (c : Fin 1024) :
    kArr x wp (ix3 b n c) = kAt x wp b n c := rfl
theorem vArr_apply (x : Act.Idx → EReal) (wp : Wt.Idx → EReal) (b : Fin 2) (n : Fin 2048) (c : Fin 1024) :
    vArr x wp (ix3 b n c) = vAt x wp b n c := rfl

/-- Lane `d` of head `h` among the 1024 feature columns. -/
def headCol (h : Fin 16) (d : Fin 64) : Fin 1024 := ⟨h.val * 64 + d.val, by omega⟩

/-- The head a feature column belongs to. -/
def headOf (c : Fin 1024) : Fin 16 := ⟨c.val / 64, by omega⟩

/-- Head `h`'s score of query token `n` against key token `m`, from query and key ARRAYS. -/
def scoreK (Q K : Act.Idx → EReal) (b : Fin 2) (h : Fin 16) (n m : Fin 2048) : EReal :=
  ∑ d : Fin 64, Q (ix3 b n (headCol h d)) * K (ix3 b m (headCol h d))

/-- Attention from query, key and value arrays, at (b, n, c). -/
def attnAt (Q K V : Act.Idx → EReal) (b : Fin 2) (n : Fin 2048) (c : Fin 1024) : EReal :=
  softmaxAvgK (fun m => scoreK Q K b (headOf c) n m) (fun m => V (ix3 b m c))

def attnArr (Q K V : Act.Idx → EReal) : Act.Idx → EReal := fun i => attnAt Q K V (i 0) (i 1) (i 2)

theorem attnArr_apply (Q K V : Act.Idx → EReal) (b : Fin 2) (n : Fin 2048) (c : Fin 1024) :
    attnArr Q K V (ix3 b n c) = attnAt Q K V b n c := rfl

/-- The whole first arrangement, as a function of the argument arrays. -/
def kernelValue (z : Act.Idx → EReal) (w : Wt.Idx → EReal) : Act.Idx → EReal :=
  attnArr (qArr z (repack w)) (kArr z (repack w)) (vArr z (repack w))

/-! ## The second arrangement: original rows, scale on the score, every weight divided -/

/-- Row `h·192 + j·64 + d` of the original weight: lane `d` of head `h`'s query (j = 0), key (1) or value (2). -/
def qkvRow (h : Fin 16) (j : Fin 3) (d : Fin 64) : Fin 3072 := ⟨h.val * 192 + j.val * 64 + d.val, by omega⟩

/-- Head `h`'s score of query token `n` against key token `m`: the dot product times `1 / √64`. -/
def scoreR (z : Act.Idx → EReal) (w : Wt.Idx → EReal) (b : Fin 2) (h : Fin 16) (n m : Fin 2048) : EReal :=
  (∑ d : Fin 64, proj z w b n (qkvRow h 0 d) * proj z w b m (qkvRow h 1 d))
    * Ideal.div (Ideal.ofBits .f32 0x3F800000#32) (Ideal.sqrt (Ideal.ofBits .f32 0x42800000#32))

/-- The second arrangement at batch `b`, token `n`, head `h`, lane `d`. -/
def refAt (z : Act.Idx → EReal) (w : Wt.Idx → EReal) (b : Fin 2) (n : Fin 2048) (h : Fin 16) (d : Fin 64) : EReal :=
  softmaxAvgR (fun m => scoreR z w b h n m) (fun m => proj z w b m (qkvRow h 2 d))

/-- The lane of a feature column inside its head. -/
def laneOf (c : Fin 1024) : Fin 64 := ⟨c.val % 64, by omega⟩

/-- The whole second arrangement, as a function of the argument arrays: column `c` is lane `c % 64` of head `c / 64`. -/
def refValue (z : Act.Idx → EReal) (w : Wt.Idx → EReal) : Act.Idx → EReal :=
  fun i => refAt z w (i 0) (i 1) (headOf (i 2)) (laneOf (i 2))

theorem refValue_apply (z : Act.Idx → EReal) (w : Wt.Idx → EReal) (b : Fin 2) (n : Fin 2048) (c : Fin 1024) :
    refValue z w (ix3 b n c) = refAt z w b n (headOf c) (laneOf c) := rfl

end Cert.Attention

end
-- ==== Proof.AttentionLaw.lean ====
/-
  The two arrangements of the attention average agree on real-valued arguments.
-/
import proofs.«411982_j27814208209356_3_alg».proof.Proof.Attention

set_option maxRecDepth 16384

noncomputable section

open scoped BigOperators

namespace Cert.Attention

open Idealize.ShloMosaic Idealize.ShloMosaic.ValueIdx

/-! ## The literal words -/

theorem word_eighth : Ideal.ofBits .bf16 0x3E00#16 = ((1/8 : ℝ) : EReal) := by
  simp [Ideal.ofBits, Ideal.ieee, -EReal.coe_mul]; norm_num

theorem word_one : Ideal.ofBits .f32 0x3F800000#32 = ((1 : ℝ) : EReal) := by
  simp [Ideal.ofBits, Ideal.ieee, -EReal.coe_mul]; norm_num

theorem word_sixtyfour : Ideal.ofBits .f32 0x42800000#32 = ((64 : ℝ) : EReal) := by
  simp [Ideal.ofBits, Ideal.ieee, -EReal.coe_mul]; norm_num

theorem sqrt_sixtyfour : Real.sqrt 64 = 8 := by
  rw [show (64 : ℝ) = 8 * 8 by norm_num]
  exact Real.sqrt_mul_self (by norm_num)

theorem scale_word :
    Ideal.div (Ideal.ofBits .f32 0x3F800000#32) (Ideal.sqrt (Ideal.ofBits .f32 0x42800000#32))
      = ((1/8 : ℝ) : EReal) := by
  rw [word_one, word_sixtyfour, Ideal.sqrt_coe, if_neg (by norm_num), sqrt_sixtyfour,
    Ideal.div_coe (by norm_num), ← EReal.coe_mul]
  norm_num

/-! ## Finite sums and maxima of reals inside the extended reals -/

/-- The inclusion of the reals commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The inclusion of the reals commutes with the binary maximum. -/
theorem coe_max' (a b : ℝ) : max (a : EReal) (b : EReal) = ((max a b : ℝ) : EReal) :=
  (EReal.coe_strictMono.monotone.map_max).symm

/-- The running maximum of finitely many reals, started at −∞, is −∞ or a real. -/
theorem fold_max_real {ι : Type} (t : Finset ι) (f : ι → ℝ) :
    t.fold max (⊥ : EReal) (fun i => (f i : EReal)) = ⊥ ∨
      ∃ M : ℝ, t.fold max (⊥ : EReal) (fun i => (f i : EReal)) = (M : EReal) := by
  classical
  induction t using Finset.induction_on with
  | empty => left; simp
  | insert a s ha ih =>
    right
    rw [Finset.fold_insert ha]
    rcases ih with h | ⟨M, h⟩
    · exact ⟨f a, by rw [h, max_eq_left bot_le]⟩
    · exact ⟨max (f a) M, by rw [h, coe_max']⟩

/-- The maximum of a nonempty finite family of reals is a real. -/
theorem rowMax_real {n : Nat} (r : Fin n → ℝ) (i0 : Fin n) :
    ∃ M : ℝ, rowMax (fun m => (r m : EReal)) = (M : EReal) := by
  rcases fold_max_real (Finset.univ : Finset (Fin n)) r with h | h
  · exfalso
    have h1 : ((r i0 : ℝ) : EReal) ≤ rowMax (fun m => (r m : EReal)) :=
      (Finset.le_fold_max _).mpr (Or.inr ⟨i0, Finset.mem_univ _, le_rfl⟩)
    have h2 : rowMax (fun m => (r m : EReal)) = ⊥ := h
    rw [h2] at h1
    exact EReal.coe_ne_bot _ (le_bot_iff.mp h1)
  · exact h

/-- Every unnormalised softmax weight of a nonempty family of reals is the real exponential of a real. -/
theorem expShift_real {n : Nat} (r : Fin n → ℝ) (i0 : Fin n) :
    ∃ M : ℝ, ∀ m, expShift (fun m => (r m : EReal)) m = ((Real.exp (r m - M) : ℝ) : EReal) := by
  obtain ⟨M, hM⟩ := rowMax_real r i0
  refine ⟨M, fun m => ?_⟩
  unfold expShift
  rw [hM, ← EReal.coe_sub, Ideal.exp_coe]

/-! ## The two averages agree on reals -/

/-- One division of the weighted sum, or a division of every weight: the same real. -/
theorem softmaxAvg_eq (r v : Fin 2048 → ℝ) :
    softmaxAvgK (fun m => (r m : EReal)) (fun m => (v m : EReal))
      = softmaxAvgR (fun m => (r m : EReal)) (fun m => (v m : EReal)) := by
  obtain ⟨M, hE⟩ := expShift_real r (0 : Fin 2048)
  have hL : (0 : ℝ) < ∑ m : Fin 2048, Real.exp (r m - M) :=
    Finset.sum_pos (fun m _ => Real.exp_pos _) ⟨0, Finset.mem_univ _⟩
  have hN : (∑ m : Fin 2048, expShift (fun m => (r m : EReal)) m)
      = ((∑ m : Fin 2048, Real.exp (r m - M) : ℝ) : EReal) := by
    rw [coe_sum]; exact Finset.sum_congr rfl (fun m _ => hE m)
  have hK : softmaxAvgK (fun m => (r m : EReal)) (fun m => (v m : EReal))
      = (((∑ m : Fin 2048, Real.exp (r m - M) * v m) * (1 / ∑ m : Fin 2048, Real.exp (r m - M)) : ℝ) : EReal) := by
    unfold softmaxAvgK
    rw [hN, Ideal.div_coe hL.ne', EReal.coe_mul, coe_sum]
    refine congrArg (fun t : EReal => t * (((1 / ∑ m : Fin 2048, Real.exp (r m - M)) : ℝ) : EReal)) ?_
    refine Finset.sum_congr rfl (fun m _ => ?_)
    show expShift (fun m => (r m : EReal)) m * (v m : EReal) = ((Real.exp (r m - M) * v m : ℝ) : EReal)
    rw [hE m, EReal.coe_mul]
  have hR : softmaxAvgR (fun m => (r m : EReal)) (fun m => (v m : EReal))
      = ((∑ m : Fin 2048, Real.exp (r m - M) * (1 / ∑ m : Fin 2048, Real.exp (r m - M)) * v m : ℝ) : EReal) := by
    unfold softmaxAvgR
    rw [hN]
    refine Eq.trans ?_ (coe_sum _ _).symm
    refine Finset.sum_congr rfl (fun m _ => ?_)
    show Ideal.div (expShift (fun m => (r m : EReal)) m)
          ((∑ m : Fin 2048, Real.exp (r m - M) : ℝ) : EReal) * (v m : EReal)
        = ((Real.exp (r m - M) * (1 / ∑ m : Fin 2048, Real.exp (r m - M)) * v m : ℝ) : EReal)
    rw [hE m, Ideal.div_coe hL.ne', EReal.coe_mul, EReal.coe_mul]
  rw [hK, hR, Finset.sum_mul]
  exact congrArg Real.toEReal (Finset.sum_congr rfl (fun m _ => by ring))

/-! ## The repacked rows are the original rows -/

/-- Projecting onto a repacked row is projecting onto its original row. -/
theorem proj_repack (z : Act.Idx → EReal) (w : Wt.Idx → EReal) (b : Fin 2) (n : Fin 2048) (r : Fin 3072) :
    proj z (repack w) b n r = proj z w b n (srcRow r) := rfl

/-- Repacked row `h·64 + d` (a query row) comes from original row `h·192 + d`. -/
theorem srcRow_q (h : Fin 16) (d : Fin 64) : srcRow (third 0 (headCol h d)) = qkvRow h 0 d := by
  have hh := h.isLt
  have hd := d.isLt
  apply Fin.ext
  simp only [srcRow, third, headCol, qkvRow, Fin.val_zero]
  omega

/-- Repacked row `1024 + h·64 + d` (a key row) comes from original row `h·192 + 64 + d`. -/
theorem srcRow_k (h : Fin 16) (d : Fin 64) : srcRow (third 1 (headCol h d)) = qkvRow h 1 d := by
  have hh := h.isLt
  have hd := d.isLt
  apply Fin.ext
  simp only [srcRow, third, headCol, qkvRow, Fin.val_one]
  omega

/-- Repacked row `2048 + c` (a value row) comes from original row `(c / 64)·192 + 128 + c % 64`. -/
theorem srcRow_v (c : Fin 1024) : srcRow (third 2 c) = qkvRow (headOf c) 2 (laneOf c) := by
  have hc := c.isLt
  apply Fin.ext
  simp only [srcRow, third, headOf, laneOf, qkvRow, Fin.val_two]
  omega

/-! ## Projections and scores of real arrays -/

/-- The projection of real arrays, as a real. -/
def projR (zr : Act.Idx → ℝ) (wr : Wt.Idx → ℝ) (b : Fin 2) (n : Fin 2048) (r : Fin 3072) : ℝ :=
  ∑ e : Fin 1024, zr (ix3 b n e) * wr (ix2 r e)

/-- The scaled score of real arrays, as a real: the dot product of the projected lanes times 1/8. -/
def scoreReal (zr : Act.Idx → ℝ) (wr : Wt.Idx → ℝ) (b : Fin 2) (h : Fin 16) (n m : Fin 2048) : ℝ :=
  (∑ d : Fin 64, projR zr wr b n (qkvRow h 0 d) * projR zr wr b m (qkvRow h 1 d)) * (1 / 8)

section RealArrays

variable (z : Act.Idx → EReal) (w : Wt.Idx → EReal) (zr : Act.Idx → ℝ) (wr : Wt.Idx → ℝ)
  (hzr : ∀ i, z i = (zr i : EReal)) (hwr : ∀ i, w i = (wr i : EReal))

include hzr hwr

/-- The projection of real arrays is the real projection. -/
theorem proj_real (b : Fin 2) (n : Fin 2048) (r : Fin 3072) :
    proj z w b n r = ((projR zr wr b n r : ℝ) : EReal) := by
  unfold proj projR
  rw [coe_sum]
  refine Finset.sum_congr rfl (fun e _ => ?_)
  rw [hzr, hwr, EReal.coe_mul]

/-- The first arrangement's score (scale on the query lanes, repacked rows) is the real score. -/
theorem scoreK_real (b : Fin 2) (h : Fin 16) (n m : Fin 2048) :
    scoreK (qArr z (repack w)) (kArr z (repack w)) b h n m = ((scoreReal zr wr b h n m : ℝ) : EReal) := by
  unfold scoreK scoreReal
  rw [Finset.sum_mul, coe_sum]
  refine Finset.sum_congr rfl (fun d _ => ?_)
  rw [qArr_apply, kArr_apply, qAt, kAt, proj_repack, proj_repack, srcRow_q, srcRow_k,
    proj_real z w zr wr hzr hwr, proj_real z w zr wr hzr hwr, word_eighth,
    ← EReal.coe_mul, ← EReal.coe_mul]
  exact congrArg Real.toEReal (by ring)

/-- The second arrangement's score (scale on the finished dot product, original rows) is the real score. -/
theorem scoreR_real (b : Fin 2) (h : Fin 16) (n m : Fin 2048) :
    scoreR z w b h n m = ((scoreReal zr wr b h n m : ℝ) : EReal) := by
  unfold scoreR scoreReal
  rw [scale_word, EReal.coe_mul, coe_sum]
  refine congrArg (fun t : EReal => t * (((1 / 8 : ℝ)) : EReal)) ?_
  refine Finset.sum_congr rfl (fun d _ => ?_)
  rw [proj_real z w zr wr hzr hwr, proj_real z w zr wr hzr hwr, EReal.coe_mul]

/-- The first arrangement's value lane (repacked rows) is the real projection onto the original value row. -/
theorem vArr_real (b : Fin 2) (m : Fin 2048) (c : Fin 1024) :
    vArr z (repack w) (ix3 b m c) = ((projR zr wr b m (qkvRow (headOf c) 2 (laneOf c)) : ℝ) : EReal) := by
  rw [vArr_apply, vAt, proj_repack, srcRow_v, proj_real z w zr wr hzr hwr]

/-- The two arrangements agree at every index. -/
theorem kernelValue_eq_refValue_at (b : Fin 2) (n : Fin 2048) (c : Fin 1024) :
    kernelValue z w (ix3 b n c) = refValue z w (ix3 b n c) := by
  rw [refValue_apply]
  unfold kernelValue
  rw [attnArr_apply]
  unfold attnAt refAt
  simp only [scoreK_real z w zr wr hzr hwr, scoreR_real z w zr wr hzr hwr, vArr_real z w zr wr hzr hwr,
    proj_real z w zr wr hzr hwr]
  exact softmaxAvg_eq _ _

end RealArrays

/-- On real-valued activations and weights the two arrangements are the same array. -/
theorem kernelValue_eq_refValue (z : Act.Idx → EReal) (w : Wt.Idx → EReal) (hz : RealValued z) (hw : RealValued w) :
    kernelValue z w = refValue z w := by
  choose zr hzr using hz
  choose wr hwr using hw
  funext i
  obtain ⟨b, n, c, rfl⟩ : ∃ (b : Fin 2) (n : Fin 2048) (c : Fin 1024), i = ix3 b n c :=
    ⟨i 0, i 1, i 2, eq_ix3 i⟩
  exact kernelValue_eq_refValue_at z w zr wr hzr hwr b n c

end Cert.Attention

end
-- ==== Proof.HostSide.lean ====
/-
  The host operations before the first stage: the activations reach it untouched, and the weight reaches it converted
  (the identity at the ideal instance) and with its rows reordered from (head, q|k|v, lane) to (q|k|v, head, lane):
  row `j·1024 + h·64 + d` of what the stage reads is row `h·192 + j·64 + d` of the argument.
-/
import proofs.«411982_j27814208209356_3_alg».proof.Proof.Attention
import proofs.«411982_j27814208209356_3_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

open scoped BigOperators

namespace Cert.KernelIdeal.HostSide

open Idealize.ShloMosaic Idealize.ShloMosaic.TcCoe Idealize.ShloMosaic.ValueIdx Idealize.SL.Sem
open Cert.KernelIdeal Cert.KernelIdeal.Gen Cert.Attention

variable (m : (ℓ : Loc nD τ sig) → Buf (Elt Ideal) ℓ) (ρ : Dev nD → PrngReg)

/-- No host operation writes the activations. -/
theorem entry_act (c : Dev nD) : V1 m ρ c main_arg0 = m ((c.tc : Thread nD τ).loc main_arg0) := by
  show StableHlo.after hostOps0 (W0 m ρ c) (Proc.devRef .tc main_arg0) = W0 m ρ c (Proc.devRef .tc main_arg0)
  exact StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))

/-- The weight argument as an array. -/
abbrev wArg (c : Dev nD) : FVec Ideal S3072x1024 .f32 := m ((c.tc : Thread nD τ).loc main_arg1)
/-- The weight as the first stage finds it, as an array. -/
abbrev wEntry (c : Dev nD) : FVec Ideal S3072x1024 .bf16 := V1 m ρ c main_v3

/-- The weight the first stage reads, as the host operations' term of the argument. -/
theorem weight_term (c : Dev nD) :
    wEntry m ρ c
      = truncf (F := Ideal) .bf16 (shapeCast S3072x1024 (transpose S3x16x64x1024 [1, 0, 2, 3]
          (shapeCast S16x3x64x1024 (wArg m c) shapeCasts_S3072x1024_S16x3x64x1024)
          transposes_S16x3x64x1024_S3x16x64x1024_1_0_2_3) shapeCasts_S3x16x64x1024_S3072x1024) bitsLt_bf16_f32 := by
  show StableHlo.after hostOps0 (W0 m ρ c) (Proc.devRef .tc main_v3) = _
  after_results
  rfl

/-- Read at an index: row `r` of what the stage reads is row `srcRow r` of the argument. -/
theorem entry_weight (c : Dev nD) : V1 m ρ c main_v3 = repack (m ((c.tc : Thread nD τ).loc main_arg1)) := by
  show wEntry m ρ c = repack (wArg m c)
  refine (weight_term m ρ c).trans ?_
  funext i
  obtain ⟨r, e, rfl⟩ : ∃ (r : Fin 3072) (e : Fin 1024), i = ix2 r e := ⟨i 0, i 1, eq_ix2 i⟩
  rw [repack_apply]
  have hr : r.val < 3072 := r.isLt
  have he : e.val < 1024 := e.isLt
  refine (truncf_apply (ψ := .bf16) _ bitsLt_bf16_f32 (ix2 r e)).trans ?_
  refine (shapeCast_apply _ shapeCasts_S3x16x64x1024_S3072x1024 (ix2 r e)
    (ix4 (⟨r.val / 1024, by omega⟩ : Fin 3) (⟨r.val % 1024 / 64, by omega⟩ : Fin 16) (⟨r.val % 64, by omega⟩ : Fin 64) e) ?_).trans ?_
  · rewrite [Shape.rowMajor_val_four, Shape.rowMajor_val_two]
    show ((r.val / 1024 * 16 + r.val % 1024 / 64) * 64 + r.val % 64) * 1024 + e.val = r.val * 1024 + e.val
    omega
  refine (transpose_apply [1, 0, 2, 3] _ transposes_S16x3x64x1024_S3x16x64x1024_1_0_2_3
    (ix4 (⟨r.val / 1024, by omega⟩ : Fin 3) (⟨r.val % 1024 / 64, by omega⟩ : Fin 16) (⟨r.val % 64, by omega⟩ : Fin 64) e)
    (ix4 (⟨r.val % 1024 / 64, by omega⟩ : Fin 16) (⟨r.val / 1024, by omega⟩ : Fin 3) (⟨r.val % 64, by omega⟩ : Fin 64) e)
    (fun b => match b with
      | ⟨0, _⟩ => rfl
      | ⟨1, _⟩ => rfl
      | ⟨2, _⟩ => rfl
      | ⟨3, _⟩ => rfl)).trans ?_
  refine shapeCast_apply _ shapeCasts_S3072x1024_S16x3x64x1024
    (ix4 (⟨r.val % 1024 / 64, by omega⟩ : Fin 16) (⟨r.val / 1024, by omega⟩ : Fin 3) (⟨r.val % 64, by omega⟩ : Fin 64) e)
    (ix2 (srcRow r) e) ?_
  rewrite [Shape.rowMajor_val_two, Shape.rowMajor_val_four]
  show (r.val % 1024 / 64 * 192 + r.val / 1024 * 64 + r.val % 64) * 1024 + e.val
    = ((r.val % 1024 / 64 * 3 + r.val / 1024) * 64 + r.val % 64) * 1024 + e.val
  omega

end Cert.KernelIdeal.HostSide

end
-- ==== Proof.LibMatmulAt.lean ====
/-
  A `tpu.matmul` into a zero accumulator, read at an output index, at the ideal instance: the plain sum of products
  over the one contracted axis, for the two rank-2 layouts a kernel uses.

  * `transposedRhs M K N` contracts the last axis of an M×K left operand with the last axis of an N×K right operand:
      out (p, q) = ∑ k, l (p, k) · r (q, k).
  * `plain M K N` contracts the last axis of an M×K left operand with the first axis of a K×N right operand:
      out (p, q) = ∑ k, l (p, k) · r (k, q).
  Both are stated for every M, K, N and every pair of operand formats, so one statement serves every tiling; a printed
  record with the same dimension numbers is one of these two by `rfl`.
-/
import Idealize.ShloMosaic.PureOps.Ideal.Laws
import Idealize.ShloMosaic.Lib.ValueIdx

noncomputable section

open scoped BigOperators

namespace Idealize.ShloMosaic.MatmulAt

open Idealize.ShloMosaic Idealize.ShloMosaic.ValueIdx

variable {M K N : Nat}

/-! ### Last axis with last axis -/

theorem tr_lhs_0 (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

theorem tr_lhs_1 (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q

theorem tr_rhs_0 (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

theorem tr_rhs_1 (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- `out (p, q) = ∑ k, l (p, k) · r (q, k)`. -/
theorem matmul_transposedRhs_apply {φ₁ φ₂ : FTy} (prec : Option ContractPrecision)
    (l : FVec Ideal ⟨2, ![M, K]⟩ φ₁) (r : FVec Ideal ⟨2, ![N, K]⟩ φ₂) (p : Fin M) (q : Fin N) :
    FloatOps.matmul (DotDims.transposedRhs M K N) prec l r (constant ⟨2, ![M, N]⟩ .f32 0x00000000#32) (ix2 p q)
      = ∑ k : Fin K, l (ix2 p k) * r (ix2 q k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact tr_lhs_0 _ _
      | ⟨1, _⟩ => exact (tr_lhs_1 _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact tr_rhs_0 _ _
      | ⟨1, _⟩ => exact (tr_rhs_1 _ _).trans hk)
  rw [el, er]

/-! ### Last axis with first axis -/

theorem pl_lhs_0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem pl_lhs_1 (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

theorem pl_rhs_0 (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

theorem pl_rhs_1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- `out (p, q) = ∑ k, l (p, k) · r (k, q)`. -/
theorem matmul_plain_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact pl_lhs_0 _ _
      | ⟨1, _⟩ => exact (pl_lhs_1 _ _).trans hk)
  have er : (DotDims.plain M K N).rhsIdx (ix2 p q) ((contrEquiv1 (DotDims.plain M K N) K rfl rfl).symm k) = ix2 k q :=
    funext fun a => Fin.ext (by
      match a with
      | ⟨0, _⟩ => exact (pl_rhs_0 _ _).trans hk
      | ⟨1, _⟩ => exact pl_rhs_1 _ _)
  rw [el, er]

end Idealize.ShloMosaic.MatmulAt

end
-- ==== Proof.Region0.lean ====
/-
  The first region (the fused projection) read as values: after its eight grid points the three output arrays hold the
  scaled query, key and value projections of the activations against the (repacked) weight the region finds.
-/
import proofs.«411982_j27814208209356_3_alg».proof.Proof.Attention
import proofs.«411982_j27814208209356_3_alg».proof.Proof.Gen.KernelIdeal.Frame
import proofs.«411982_j27814208209356_3_alg».proof.Proof.LibMatmulAt
import Idealize.ShloMosaic.Lib.Pipeline.Value
import Idealize.ShloMosaic.Lib.ValueIdx
import Idealize.ShloMosaic.Lib.ValueLayout
import Idealize.ShloMosaic.PureOps.Ideal.Laws
set_option maxRecDepth 16384

noncomputable section

open scoped BigOperators

namespace Cert.KernelIdeal.Region0

open Idealize.ShloMosaic Idealize.ShloMosaic.TcCoe Idealize.ShloMosaic.ValueIdx Idealize.SL.Sem
open Idealize.ShloMosaic.Pipeline (Dat)
open Cert.KernelIdeal Cert.KernelIdeal.Gen Cert.Attention

variable (V : (c : Dev nD) → (b : Ref sig .tc) → Buf (Elt Ideal) ((c : Thread nD τ).loc b))

/-!
  The grid is 2 × 4: point (b, i) loads rows 512·i … 512·i + 511 of batch b of the activations and the whole weight,
  forms the 512 × 3072 product y[r, q] = ∑ e, x[r, e] · w[q, e], and writes its three column thirds — the first
  multiplied by 1/8 — to the same rows of the three output arrays. Every row of every batch belongs to exactly one
  point's block, so each output array ends as one function of the activations and the weight, entry by entry.
-/

/-! ## The body's arithmetic at an index -/

/-- The product contracts the last axis of the 512 × 1024 block with the last axis of the 3072 × 1024 weight. -/
theorem dims_eq : dot_S512x1024_S3072x1024_S512x3072_1_1_0_0_n_n = DotDims.transposedRhs 512 1024 3072 := rfl

/-- Entry (r, q) of the product of a loaded activation block and the loaded weight: `∑ e, x[0, r, e] · w[q, e]`
    (the changes of float format are the identity over the extended reals). -/
theorem proj_at (x0 : FVec Ideal S1x512x1024 .f32) (x1 : FVec Ideal S3072x1024 .bf16) (r : Fin 512) (q : Fin 3072) :
    k0_pay1 (F := Ideal) x0 x1 (ix2 r q) = ∑ e : Fin 1024, x0 (ix3 (0 : Fin 1) r e) * x1 (ix2 q e) := by
  unfold k0_pay1
  refine (truncf_apply (ψ := .bf16) (φ := .f32) _ bitsLt_bf16_f32 (ix2 r q)).trans ?_
  rw [dims_eq]
  refine (MatmulAt.matmul_transposedRhs_apply none _ _ r q).trans ?_
  refine Finset.sum_congr rfl fun e _ => ?_
  rw [truncf_apply, shapeCast_1ab_ab_apply, shapeCast_self]

/-- The query block at (r, c): column `c` of the product (its first third) times the word of 1/8. -/
theorem q_pay_at (x0 : FVec Ideal S1x512x1024 .f32) (x1 : FVec Ideal S3072x1024 .bf16) (u : Fin 1) (r : Fin 512) (cc : Fin 1024) :
    k0_pay2 (F := Ideal) x0 x1 (ix3 u r cc)
      = (∑ e : Fin 1024, x0 (ix3 (0 : Fin 1) r e) * x1 (ix2 (third 0 cc) e)) * Ideal.ofBits .bf16 0x3E00#16 := by
  unfold k0_pay2
  refine (shapeCast_ab_1ab_apply _ shapeCasts_S512x1024_S1x512x1024 u r cc).trans ?_
  refine (mulf_apply _ _ (ix2 r cc)).trans ?_
  rw [broadcast_apply]
  refine congrArg (· * Ideal.ofBits .bf16 0x3E00#16) ?_
  refine (extractStridedSlice_apply _ _ slices_S512x3072_o0_0_S512x1024 (ix2 r cc) (ix2 r (third 0 cc)) (fun a => ?_)).trans
    (proj_at x0 x1 r (third 0 cc))
  match a with
  | ⟨0, _⟩ => exact (Nat.zero_add _).symm
  | ⟨1, _⟩ => show 0 * 1024 + cc.val = 0 + cc.val; omega

/-- The key block at (r, c): column `1024 + c` of the product (its second third). -/
theorem k_pay_at (x0 : FVec Ideal S1x512x1024 .f32) (x1 : FVec Ideal S3072x1024 .bf16) (u : Fin 1) (r : Fin 512) (cc : Fin 1024) :
    k0_pay3 (F := Ideal) x0 x1 (ix3 u r cc)
      = ∑ e : Fin 1024, x0 (ix3 (0 : Fin 1) r e) * x1 (ix2 (third 1 cc) e) := by
  unfold k0_pay3
  refine (shapeCast_ab_1ab_apply _ shapeCasts_S512x1024_S1x512x1024 u r cc).trans ?_
  refine (extractStridedSlice_apply _ _ slices_S512x3072_o0_1024_S512x1024 (ix2 r cc) (ix2 r (third 1 cc)) (fun a => ?_)).trans
    (proj_at x0 x1 r (third 1 cc))
  match a with
  | ⟨0, _⟩ => exact (Nat.zero_add _).symm
  | ⟨1, _⟩ => show 1 * 1024 + cc.val = 1024 + cc.val; omega

/-- The value block at (r, c): column `2048 + c` of the product (its last third). -/
theorem v_pay_at (x0 : FVec Ideal S1x512x1024 .f32) (x1 : FVec Ideal S3072x1024 .bf16) (u : Fin 1) (r : Fin 512) (cc : Fin 1024) :
    k0_pay4 (F := Ideal) x0 x1 (ix3 u r cc)
      = ∑ e : Fin 1024, x0 (ix3 (0 : Fin 1) r e) * x1 (ix2 (third 2 cc) e) := by
  unfold k0_pay4
  refine (shapeCast_ab_1ab_apply _ shapeCasts_S512x1024_S1x512x1024 u r cc).trans ?_
  refine (extractStridedSlice_apply _ _ slices_S512x3072_o0_2048_S512x1024 (ix2 r cc) (ix2 r (third 2 cc)) (fun a => ?_)).trans
    (proj_at x0 x1 r (third 2 cc))
  match a with
  | ⟨0, _⟩ => exact (Nat.zero_add _).symm
  | ⟨1, _⟩ => show 2 * 1024 + cc.val = 2048 + cc.val; omega

/-! ## Where each point's blocks sit in their arrays -/

theorem zeros3 : (![0, 0, 0] : Fin 3 → Nat) = fun _ => 0 := funext fun a => by fin_cases a <;> rfl
theorem zeros2 : (![0, 0] : Fin 2 → Nat) = fun _ => 0 := funext fun a => by fin_cases a <;> rfl

/-- The block indices at every grid point: the activation block is at (batch, row block, 0) with batch ≤ 1 and row
    block ≤ 3; the weight block is the whole array; each output block is where the activation block is. -/
theorem block_index_facts : ∀ t : Fin cfg0.N,
    win0_0.index t (2 : Fin 3) = 0 ∧ win0_0.index t (0 : Fin 3) ≤ 1 ∧ win0_0.index t (1 : Fin 3) ≤ 3
    ∧ win0_1.index t (0 : Fin 2) = 0 ∧ win0_1.index t (1 : Fin 2) = 0
    ∧ win0_2.index t (0 : Fin 3) = win0_0.index t (0 : Fin 3) ∧ win0_2.index t (1 : Fin 3) = win0_0.index t (1 : Fin 3) ∧ win0_2.index t (2 : Fin 3) = 0
    ∧ win0_3.index t (0 : Fin 3) = win0_0.index t (0 : Fin 3) ∧ win0_3.index t (1 : Fin 3) = win0_0.index t (1 : Fin 3) ∧ win0_3.index t (2 : Fin 3) = 0
    ∧ win0_4.index t (0 : Fin 3) = win0_0.index t (0 : Fin 3) ∧ win0_4.index t (1 : Fin 3) = win0_0.index t (1 : Fin 3) ∧ win0_4.index t (2 : Fin 3) = 0 :=
  (by decide +kernel : ∀ t : Fin grid0.N, _)

/-- Every (batch, row block) pair is some grid point's. -/
theorem block_index_onto : ∀ (q0 : Fin 2) (q1 : Fin 4), ∃ t : Fin cfg0.N,
    win0_0.index t (0 : Fin 3) = q0.val ∧ win0_0.index t (1 : Fin 3) = q1.val :=
  (by decide +kernel : ∀ (q0 : Fin 2) (q1 : Fin 4), ∃ t : Fin grid0.N,
    win0_0.index t (0 : Fin 3) = q0.val ∧ win0_0.index t (1 : Fin 3) = q1.val)

/-- Entry (0, r, e) of the activation block at a point is the activations at (batch, 512 · row block + r, e). -/
theorem act_block (c : Dev nD) (t : Fin cfg0.N) (r : Fin 512) (e : Fin 1024) (k : Act.Idx)
    (hk0 : (k 0).val = win0_0.index t (0 : Fin 3)) (hk1 : (k 1).val = win0_0.index t (1 : Fin 3) * 512 + r.val)
    (hk2 : (k 2).val = e.val) :
    (iblk0 (F := Ideal) V c 0 t : FVec Ideal S1x512x1024 .f32) (ix3 (0 : Fin 1) r e) = (V c main_arg0 : Act.Idx → EReal) k := by
  obtain ⟨e2, -⟩ := block_index_facts t
  unfold iblk0
  rw [View.read_apply]
  show (V c main_arg0 : Act.Idx → EReal) _ = _
  congr 1
  funext a
  apply Fin.ext
  match a with
  | ⟨0, _⟩ => show win0_0.index t (0 : Fin 3) * 1 + 1 * (0 : Fin 1).val = (k 0).val; rw [hk0]; simp
  | ⟨1, _⟩ => show win0_0.index t (1 : Fin 3) * 512 + 1 * r.val = (k 1).val; rw [hk1]; omega
  | ⟨2, _⟩ => show win0_0.index t (2 : Fin 3) * 1024 + 1 * e.val = (k 2).val; rw [hk2, e2]; omega

/-- The weight block at every point is the whole weight. -/
theorem wt_block (c : Dev nD) (t : Fin cfg0.N) (q : Fin 3072) (e : Fin 1024) :
    (iblk0 (F := Ideal) V c 1 t : FVec Ideal S3072x1024 .bf16) (ix2 q e) = (V c main_v3 : Wt.Idx → EReal) (ix2 q e) := by
  obtain ⟨-, -, -, e0, e1, -⟩ := block_index_facts t
  unfold iblk0
  rw [View.read_apply]
  show (V c main_v3 : Wt.Idx → EReal) _ = _
  congr 1
  funext a
  apply Fin.ext
  match a with
  | ⟨0, _⟩ => show win0_1.index t (0 : Fin 2) * 3072 + 1 * q.val = q.val; rw [e0]; omega
  | ⟨1, _⟩ => show win0_1.index t (1 : Fin 2) * 1024 + 1 * e.val = e.val; rw [e1]; omega

/-! ## The query array -/

/-- A block of the query array, entry by entry: when the loaded activation block is rows `n0 … n0 + 511` of batch `b` of `A`
    and the loaded weight is `W`, the body's query block at `j` is the query array of `A` and `W` at batch `b`, row `n0 + j₁`,
    column `j₂`. -/
theorem q_block (x0 : FVec Ideal S1x512x1024 .f32) (x1 : FVec Ideal S3072x1024 .bf16)
    (A : Act.Idx → EReal) (W : Wt.Idx → EReal) (b n0 : Nat)
    (h0 : ∀ (r : Fin 512) (e : Fin 1024) (k : Act.Idx), (k 0).val = b → (k 1).val = n0 + r.val → (k 2).val = e.val →
      x0 (ix3 (0 : Fin 1) r e) = A k)
    (h1 : ∀ (q : Fin 3072) (e : Fin 1024), x1 (ix2 q e) = W (ix2 q e))
    (j : S1x512x1024.Idx) (k : Act.Idx) (hk0 : (k 0).val = b) (hk1 : (k 1).val = n0 + (j 1).val)
    (hk2 : (k 2).val = (j 2).val) :
    k0_pay2 (F := Ideal) x0 x1 j = qArr A W k := by
  obtain ⟨u, r, cc, rfl⟩ : ∃ (u : Fin 1) (r : Fin 512) (cc : Fin 1024), j = ix3 u r cc := ⟨j 0, j 1, j 2, eq_ix3 j⟩
  obtain ⟨kb, kn, kc, rfl⟩ : ∃ (kb : Fin 2) (kn : Fin 2048) (kc : Fin 1024), k = ix3 kb kn kc := ⟨k 0, k 1, k 2, eq_ix3 k⟩
  obtain rfl : kc = cc := Fin.ext hk2
  rw [q_pay_at, qArr_apply]
  unfold qAt proj
  refine congrArg (· * Ideal.ofBits .bf16 0x3E00#16) (Finset.sum_congr rfl fun e _ => ?_)
  rw [h0 r e (ix3 kb kn e) hk0 hk1 rfl, h1]

/-- What a grid point writes back into the query array is that point's block of the query array of the activations and the
    weight the region finds. -/
theorem flushed_q (c : Dev nD) (t : Fin cfg0.N) :
    (dat0 (F := Ideal) V c).flushed 2 t
      = ((cfg0.win 2).blk t).view.read (Elt Ideal) (qArr (V c main_arg0) (V c main_v3)) := by
  show (cfg0.win 2).cut (grid0.coords t) ((dat0 (F := Ideal) V c).after 2 t) = _
  rw [after0_2]
  unfold out0_2
  rw [View.canon_unit_zero zeros3]
  simp only [View.ld_unit_zero (S := S1x512x1024) zeros3, View.ld_unit_zero (S := S3072x1024) zeros2]
  obtain ⟨-, -, -, -, -, e0, e1, e2, -⟩ := block_index_facts t
  funext j
  show k0_pay2 (F := Ideal) (iblk0 V c 0 t) (iblk0 V c 1 t) j
    = qArr (V c main_arg0) (V c main_v3) (((cfg0.win 2).blk t).view.emb j)
  refine q_block (iblk0 V c 0 t) (iblk0 V c 1 t) (V c main_arg0) (V c main_v3)
    (win0_0.index t (0 : Fin 3)) (win0_0.index t (1 : Fin 3) * 512)
    (fun r e k h0 h1 h2 => act_block V c t r e k h0 h1 h2) (fun q e => wt_block V c t q e) j _ ?_ ?_ ?_
  · show win0_2.index t (0 : Fin 3) * 1 + 1 * (j 0).val = win0_0.index t (0 : Fin 3)
    have hj : (j 0).val < 1 := (j 0).isLt
    omega
  · show win0_2.index t (1 : Fin 3) * 512 + 1 * (j 1).val = win0_0.index t (1 : Fin 3) * 512 + (j 1).val
    omega
  · show win0_2.index t (2 : Fin 3) * 1024 + 1 * (j 2).val = (j 2).val
    omega

/-- An index of the query array lies in a point's block iff each coordinate lies in the block's range on its axis. -/
theorem mem_blk_q (t : Fin cfg0.N) (i : Act.Idx) :
    i ∈ ((cfg0.win 2).blk t).view.set ↔ ∀ a : Fin 3, win0_2.index t a * S1x512x1024.size a ≤ (i a).val
      ∧ (i a).val < win0_2.index t a * S1x512x1024.size a + S1x512x1024.size a := by
  show i ∈ ((View.whole main_v4_0).slice (win0_2.rect t)).set ↔ _
  rw [View.set_slice_whole, Rect.mem_set_unit]
  exact Iff.rfl

/-- Every index of the query array is written back by some point: row `n` of batch `b` by the point at `(b, n / 512)`. -/
theorem cover_q (i : Act.Idx) :
    ∃ t : Fin cfg0.N, (cfg0.win 2).flush t = true ∧ i ∈ ((cfg0.win 2).blk t).view.set := by
  have hi0 : (i 0).val < 2 := (i 0).isLt
  have hi1 : (i 1).val < 2048 := (i 1).isLt
  have hi2 : (i 2).val < 1024 := (i 2).isLt
  obtain ⟨t, q0, q1⟩ := block_index_onto ⟨(i 0).val, hi0⟩ ⟨(i 1).val / 512, by omega⟩
  have q0' : win0_0.index t (0 : Fin 3) = (i 0).val := q0
  have q1' : win0_0.index t (1 : Fin 3) = (i 1).val / 512 := q1
  obtain ⟨-, -, -, -, -, e0, e1, e2, -⟩ := block_index_facts t
  refine ⟨t, flush0_2 t, ?_⟩
  rw [mem_blk_q]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 512 ≤ (i 1).val ∧ (i 1).val < win0_2.index t (1 : Fin 3) * 512 + 512
    omega
  | ⟨2, _⟩ =>
    show win0_2.index t (2 : Fin 3) * 1024 ≤ (i 2).val ∧ (i 2).val < win0_2.index t (2 : Fin 3) * 1024 + 1024
    omega

/-! ## The key array -/

/-- A block of the key array, entry by entry: when the loaded activation block is rows `n0 … n0 + 511` of batch `b` of `A`
    and the loaded weight is `W`, the body's key block at `j` is the key array of `A` and `W` at batch `b`, row `n0 + j₁`,
    column `j₂`. -/
theorem k_block (x0 : FVec Ideal S1x512x1024 .f32) (x1 : FVec Ideal S3072x1024 .bf16)
    (A : Act.Idx → EReal) (W : Wt.Idx → EReal) (b n0 : Nat)
    (h0 : ∀ (r : Fin 512) (e : Fin 1024) (k : Act.Idx), (k 0).val = b → (k 1).val = n0 + r.val → (k 2).val = e.val →
      x0 (ix3 (0 : Fin 1) r e) = A k)
    (h1 : ∀ (q : Fin 3072) (e : Fin 1024), x1 (ix2 q e) = W (ix2 q e))
    (j : S1x512x1024.Idx) (k : Act.Idx) (hk0 : (k 0).val = b) (hk1 : (k 1).val = n0 + (j 1).val)
    (hk2 : (k 2).val = (j 2).val) :
    k0_pay3 (F := Ideal) x0 x1 j = kArr A W k := by
  obtain ⟨u, r, cc, rfl⟩ : ∃ (u : Fin 1) (r : Fin 512) (cc : Fin 1024), j = ix3 u r cc := ⟨j 0, j 1, j 2, eq_ix3 j⟩
  obtain ⟨kb, kn, kc, rfl⟩ : ∃ (kb : Fin 2) (kn : Fin 2048) (kc : Fin 1024), k = ix3 kb kn kc := ⟨k 0, k 1, k 2, eq_ix3 k⟩
  obtain rfl : kc = cc := Fin.ext hk2
  rw [k_pay_at, kArr_apply]
  unfold kAt proj
  refine Finset.sum_congr rfl fun e _ => ?_
  rw [h0 r e (ix3 kb kn e) hk0 hk1 rfl, h1]

/-- What a grid point writes back into the key array is that point's block of the key array of the activations and the
    weight the region finds. -/
theorem flushed_k (c : Dev nD) (t : Fin cfg0.N) :
    (dat0 (F := Ideal) V c).flushed 3 t
      = ((cfg0.win 3).blk t).view.read (Elt Ideal) (kArr (V c main_arg0) (V c main_v3)) := by
  show (cfg0.win 3).cut (grid0.coords t) ((dat0 (F := Ideal) V c).after 3 t) = _
  rw [after0_3]
  unfold out0_3
  rw [View.canon_unit_zero zeros3]
  simp only [View.ld_unit_zero (S := S1x512x1024) zeros3, View.ld_unit_zero (S := S3072x1024) zeros2]
  obtain ⟨-, -, -, -, -, -, -, -, e0, e1, e2, -⟩ := block_index_facts t
  funext j
  show k0_pay3 (F := Ideal) (iblk0 V c 0 t) (iblk0 V c 1 t) j
    = kArr (V c main_arg0) (V c main_v3) (((cfg0.win 3).blk t).view.emb j)
  refine k_block (iblk0 V c 0 t) (iblk0 V c 1 t) (V c main_arg0) (V c main_v3)
    (win0_0.index t (0 : Fin 3)) (win0_0.index t (1 : Fin 3) * 512)
    (fun r e k h0 h1 h2 => act_block V c t r e k h0 h1 h2) (fun q e => wt_block V c t q e) j _ ?_ ?_ ?_
  · show win0_3.index t (0 : Fin 3) * 1 + 1 * (j 0).val = win0_0.index t (0 : Fin 3)
    have hj : (j 0).val < 1 := (j 0).isLt
    omega
  · show win0_3.index t (1 : Fin 3) * 512 + 1 * (j 1).val = win0_0.index t (1 : Fin 3) * 512 + (j 1).val
    omega
  · show win0_3.index t (2 : Fin 3) * 1024 + 1 * (j 2).val = (j 2).val
    omega

/-- An index of the key array lies in a point's block iff each coordinate lies in the block's range on its axis. -/
theorem mem_blk_k (t : Fin cfg0.N) (i : Act.Idx) :
    i ∈ ((cfg0.win 3).blk t).view.set ↔ ∀ a : Fin 3, win0_3.index t a * S1x512x1024.size a ≤ (i a).val
      ∧ (i a).val < win0_3.index t a * S1x512x1024.size a + S1x512x1024.size a := by
  show i ∈ ((View.whole main_v4_1).slice (win0_3.rect t)).set ↔ _
  rw [View.set_slice_whole, Rect.mem_set_unit]
  exact Iff.rfl

/-- Every index of the key array is written back by some point: row `n` of batch `b` by the point at `(b, n / 512)`. -/
theorem cover_k (i : Act.Idx) :
    ∃ t : Fin cfg0.N, (cfg0.win 3).flush t = true ∧ i ∈ ((cfg0.win 3).blk t).view.set := by
  have hi0 : (i 0).val < 2 := (i 0).isLt
  have hi1 : (i 1).val < 2048 := (i 1).isLt
  have hi2 : (i 2).val < 1024 := (i 2).isLt
  obtain ⟨t, q0, q1⟩ := block_index_onto ⟨(i 0).val, hi0⟩ ⟨(i 1).val / 512, by omega⟩
  have q0' : win0_0.index t (0 : Fin 3) = (i 0).val := q0
  have q1' : win0_0.index t (1 : Fin 3) = (i 1).val / 512 := q1
  obtain ⟨-, -, -, -, -, -, -, -, e0, e1, e2, -⟩ := block_index_facts t
  refine ⟨t, flush0_3 t, ?_⟩
  rw [mem_blk_k]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 512 ≤ (i 1).val ∧ (i 1).val < win0_3.index t (1 : Fin 3) * 512 + 512
    omega
  | ⟨2, _⟩ =>
    show win0_3.index t (2 : Fin 3) * 1024 ≤ (i 2).val ∧ (i 2).val < win0_3.index t (2 : Fin 3) * 1024 + 1024
    omega

/-! ## The value array -/

/-- A block of the value array, entry by entry: when the loaded activation block is rows `n0 … n0 + 511` of batch `b` of `A`
    and the loaded weight is `W`, the body's value block at `j` is the value array of `A` and `W` at batch `b`, row `n0 + j₁`,
    column `j₂`. -/
theorem v_block (x0 : FVec Ideal S1x512x1024 .f32) (x1 : FVec Ideal S3072x1024 .bf16)
    (A : Act.Idx → EReal) (W : Wt.Idx → EReal) (b n0 : Nat)
    (h0 : ∀ (r : Fin 512) (e : Fin 1024) (k : Act.Idx), (k 0).val = b → (k 1).val = n0 + r.val → (k 2).val = e.val →
      x0 (ix3 (0 : Fin 1) r e) = A k)
    (h1 : ∀ (q : Fin 3072) (e : Fin 1024), x1 (ix2 q e) = W (ix2 q e))
    (j : S1x512x1024.Idx) (k : Act.Idx) (hk0 : (k 0).val = b) (hk1 : (k 1).val = n0 + (j 1).val)
    (hk2 : (k 2).val = (j 2).val) :
    k0_pay4 (F := Ideal) x0 x1 j = vArr A W k := by
  obtain ⟨u, r, cc, rfl⟩ : ∃ (u : Fin 1) (r : Fin 512) (cc : Fin 1024), j = ix3 u r cc := ⟨j 0, j 1, j 2, eq_ix3 j⟩
  obtain ⟨kb, kn, kc, rfl⟩ : ∃ (kb : Fin 2) (kn : Fin 2048) (kc : Fin 1024), k = ix3 kb kn kc := ⟨k 0, k 1, k 2, eq_ix3 k⟩
  obtain rfl : kc = cc := Fin.ext hk2
  rw [v_pay_at, vArr_apply]
  unfold vAt proj
  refine Finset.sum_congr rfl fun e _ => ?_
  rw [h0 r e (ix3 kb kn e) hk0 hk1 rfl, h1]

/-- What a grid point writes back into the value array is that point's block of the value array of the activations and the
    weight the region finds. -/
theorem flushed_v (c : Dev nD) (t : Fin cfg0.N) :
    (dat0 (F := Ideal) V c).flushed 4 t
      = ((cfg0.win 4).blk t).view.read (Elt Ideal) (vArr (V c main_arg0) (V c main_v3)) := by
  show (cfg0.win 4).cut (grid0.coords t) ((dat0 (F := Ideal) V c).after 4 t) = _
  rw [after0_4]
  unfold out0_4
  rw [View.canon_unit_zero zeros3]
  simp only [View.ld_unit_zero (S := S1x512x1024) zeros3, View.ld_unit_zero (S := S3072x1024) zeros2]
  obtain ⟨-, -, -, -, -, -, -, -, -, -, -, e0, e1, e2⟩ := block_index_facts t
  funext j
  show k0_pay4 (F := Ideal) (iblk0 V c 0 t) (iblk0 V c 1 t) j
    = vArr (V c main_arg0) (V c main_v3) (((cfg0.win 4).blk t).view.emb j)
  refine v_block (iblk0 V c 0 t) (iblk0 V c 1 t) (V c main_arg0) (V c main_v3)
    (win0_0.index t (0 : Fin 3)) (win0_0.index t (1 : Fin 3) * 512)
    (fun r e k h0 h1 h2 => act_block V c t r e k h0 h1 h2) (fun q e => wt_block V c t q e) j _ ?_ ?_ ?_
  · show win0_4.index t (0 : Fin 3) * 1 + 1 * (j 0).val = win0_0.index t (0 : Fin 3)
    have hj : (j 0).val < 1 := (j 0).isLt
    omega
  · show win0_4.index t (1 : Fin 3) * 512 + 1 * (j 1).val = win0_0.index t (1 : Fin 3) * 512 + (j 1).val
    omega
  · show win0_4.index t (2 : Fin 3) * 1024 + 1 * (j 2).val = (j 2).val
    omega

/-- An index of the value array lies in a point's block iff each coordinate lies in the block's range on its axis. -/
theorem mem_blk_v (t : Fin cfg0.N) (i : Act.Idx) :
    i ∈ ((cfg0.win 4).blk t).view.set ↔ ∀ a : Fin 3, win0_4.index t a * S1x512x1024.size a ≤ (i a).val
      ∧ (i a).val < win0_4.index t a * S1x512x1024.size a + S1x512x1024.size a := by
  show i ∈ ((View.whole main_v4_2).slice (win0_4.rect t)).set ↔ _
  rw [View.set_slice_whole, Rect.mem_set_unit]
  exact Iff.rfl

/-- Every index of the value array is written back by some point: row `n` of batch `b` by the point at `(b, n / 512)`. -/
theorem cover_v (i : Act.Idx) :
    ∃ t : Fin cfg0.N, (cfg0.win 4).flush t = true ∧ i ∈ ((cfg0.win 4).blk t).view.set := by
  have hi0 : (i 0).val < 2 := (i 0).isLt
  have hi1 : (i 1).val < 2048 := (i 1).isLt
  have hi2 : (i 2).val < 1024 := (i 2).isLt
  obtain ⟨t, q0, q1⟩ := block_index_onto ⟨(i 0).val, hi0⟩ ⟨(i 1).val / 512, by omega⟩
  have q0' : win0_0.index t (0 : Fin 3) = (i 0).val := q0
  have q1' : win0_0.index t (1 : Fin 3) = (i 1).val / 512 := q1
  obtain ⟨-, -, -, -, -, -, -, -, -, -, -, e0, e1, e2⟩ := block_index_facts t
  refine ⟨t, flush0_4 t, ?_⟩
  rw [mem_blk_v]
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 512 ≤ (i 1).val ∧ (i 1).val < win0_4.index t (1 : Fin 3) * 512 + 512
    omega
  | ⟨2, _⟩ =>
    show win0_4.index t (2 : Fin 3) * 1024 ≤ (i 2).val ∧ (i 2).val < win0_4.index t (2 : Fin 3) * 1024 + 1024
    omega

/-! ## The three arrays after the region -/

theorem final_q (c : Dev nD) : (dat0 (F := Ideal) V c).arrAt 2 cfg0.N = qArr (V c main_arg0) (V c main_v3) := by
  exact (dat0 (F := Ideal) V c).arrAt_eq_of_cover 2 (qArr (V c main_arg0) (V c main_v3))
    (fun t _ => flushed_q V c t) (fun i => cover_q i)

theorem final_k (c : Dev nD) : (dat0 (F := Ideal) V c).arrAt 3 cfg0.N = kArr (V c main_arg0) (V c main_v3) := by
  exact (dat0 (F := Ideal) V c).arrAt_eq_of_cover 3 (kArr (V c main_arg0) (V c main_v3))
    (fun t _ => flushed_k V c t) (fun i => cover_k i)

theorem final_v (c : Dev nD) : (dat0 (F := Ideal) V c).arrAt 4 cfg0.N = vArr (V c main_arg0) (V c main_v3) := by
  exact (dat0 (F := Ideal) V c).arrAt_eq_of_cover 4 (vArr (V c main_arg0) (V c main_v3))
    (fun t _ => flushed_v V c t) (fun i => cover_v i)

end Cert.KernelIdeal.Region0

end
-- ==== Proof.Region1Payload.lean ====
/-
  The attention body's arithmetic at one element of its output block: for a block of 256 query rows against all 2048
  key and value rows of a pair of heads (128 columns, 64 per head), entry (r, cc) is the softmax-weighted average of
  column cc of the values, the scores being the dot products over the 64 columns of cc's own head.
-/
import proofs.«411982_j27814208209356_3_alg».proof.Proof.Attention
import proofs.«411982_j27814208209356_3_alg».proof.Proof.Gen.KernelIdeal.Frame
import proofs.«411982_j27814208209356_3_alg».proof.Proof.LibMatmulAt
import Idealize.ShloMosaic.Lib.Pipeline.Value
import Idealize.ShloMosaic.Lib.ValueIdx
import Idealize.ShloMosaic.Lib.ValueLayout
import Idealize.ShloMosaic.PureOps.Ideal.Laws
set_option maxRecDepth 16384

noncomputable section

open scoped BigOperators

namespace Cert.KernelIdeal.Region1

open Idealize.ShloMosaic Idealize.ShloMosaic.TcCoe Idealize.ShloMosaic.ValueIdx Idealize.SL.Sem
open Idealize.ShloMosaic.Pipeline (Dat)
open Cert.KernelIdeal Cert.KernelIdeal.Gen Cert.Attention

/-! ## Layout operations read at an index -/

section Layout
variable {α : Type}

/-- A vector of length a viewed as a column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast along its rows to [a, b] reads, at (i, j), the column at (i, 0). -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Layout

/-- The index over row r with coordinate m inserted on the reduced (second) axis is (r, m). -/
theorem lift_row {a b : ℕ} (h : (⟨2, ![a, b]⟩ : Shape).Reduces [1] ⟨1, ![a]⟩) (r : Fin a) (m : Fin b) :
    h.lift (ix1 r) m = ix2 r m := by
  funext c
  match c with
  | ⟨0, _⟩ => rfl
  | ⟨1, _⟩ => rfl

/-- The word 0xFF800000 is −∞. -/
theorem ofBits_negInf_f32 : Ideal.ofBits .f32 0xFF800000#32 = ⊥ := by
  simp [Ideal.ofBits, Ideal.ieee]

/-- A row-wise maximum from −∞: entry r is the largest of row r. -/
theorem rowMaxRed_apply {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = 0xFF800000#32) (r : Fin a) :
    multiReduction .maximumf [1] ⟨1, ![a]⟩ src 0xFF800000#32 h hφ hacc (ix1 r) = rowMax (fun m : Fin b => src (ix2 r m)) := by
  refine (Ideal.multiReduction_maximumf_single src 0xFF800000#32 h hφ (by cases hφ <;> first | rfl | contradiction) (ix1 r)).trans ?_
  unfold rowMax
  show (Finset.univ : Finset (Fin b)).fold max (Ideal.ofBits .f32 0xFF800000#32) (fun m => src (h.lift (ix1 r) m)) = _
  rw [ofBits_negInf_f32]
  exact congrArg (fun f : Fin b → EReal => (Finset.univ : Finset (Fin b)).fold max ⊥ f) (funext fun m => congrArg src (lift_row h r m))

/-- A row-wise sum from 0: entry r is the sum of row r. -/
theorem rowSumRed_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (r : Fin a) :
    multiReduction .add [1] ⟨1, ![a]⟩ src 0x00000000#32 h hφ hacc (ix1 r) = ∑ m : Fin b, src (ix2 r m) := by
  refine (Ideal.multiReduction_add_single src 0x00000000#32 h hφ (by cases hφ <;> first | rfl | contradiction) (ix1 r)).trans ?_
  show ∑ m : Fin b, src (h.lift (ix1 r) m) = _
  exact Finset.sum_congr rfl fun m _ => congrArg src (lift_row h r m)

/-! ## One head -/

/-- The scores of 256 query rows against 2048 key rows: the products over the 64 columns, into a zero accumulator. -/
def scoresV (q : FVec Ideal S256x64 .bf16) (k : FVec Ideal S2048x64 .bf16) : FVec Ideal S256x2048 .f32 :=
  matmul dot_S256x64_S2048x64_S256x2048_1_1_0_0_n_n none q k (constant S256x2048 .f32 0x00000000#32)

/-- The unnormalised weights: the exponential of each score less its row's maximum. -/
def weightsV (s : FVec Ideal S256x2048 .f32) : FVec Ideal S256x2048 .f32 :=
  exp (subf s (broadcastTo S256x2048
    (shapeCast S256x1 (multiReduction .maximumf [1] S256 s 0xFF800000#32 reduces_S256x2048_S256 (.inl rfl) rfl) shapeCasts_S256_S256x1)
    broadcasts_S256x1_S256x2048))

/-- One head: the weights times the values, each row divided by the sum of its weights. -/
def headBody (q : FVec Ideal S256x64 .bf16) (k v : FVec Ideal S2048x64 .bf16) : FVec Ideal S256x64 .f32 :=
  divf
    (matmul dot_S256x2048_S2048x64_S256x64_1_0_0_1_n_n none (truncf .bf16 (weightsV (scoresV q k)) bitsLt_bf16_f32) v
      (constant S256x64 .f32 0x00000000#32))
    (broadcastTo S256x64
      (shapeCast S256x1 (multiReduction .add [1] S256 (weightsV (scoresV q k)) 0x00000000#32 reduces_S256x2048_S256 (.inl rfl) rfl)
        shapeCasts_S256_S256x1)
      broadcasts_S256x1_S256x64)

theorem scoresV_apply (q : FVec Ideal S256x64 .bf16) (k : FVec Ideal S2048x64 .bf16) (r : Fin 256) (m : Fin 2048) :
    scoresV q k (ix2 r m) = ∑ d : Fin 64, q (ix2 r d) * k (ix2 m d) :=
  MatmulAt.matmul_transposedRhs_apply (M := 256) (K := 64) (N := 2048) none q k r m

theorem weightsV_apply (s : FVec Ideal S256x2048 .f32) (r : Fin 256) (m : Fin 2048) :
    weightsV s (ix2 r m) = expShift (fun m' : Fin 2048 => s (ix2 r m')) m := by
  unfold weightsV expShift
  show Ideal.exp (s (ix2 r m) - _) = _
  refine congrArg (fun t => Ideal.exp (s (ix2 r m) - t)) ?_
  refine (broadcastTo_a1_ab_apply _ broadcasts_S256x1_S256x2048 r m).trans ?_
  refine (shapeCast_a_a1_apply _ shapeCasts_S256_S256x1 r (0 : Fin 1)).trans ?_
  exact rowMaxRed_apply s reduces_S256x2048_S256 (.inl rfl) rfl r

theorem headBody_apply (q : FVec Ideal S256x64 .bf16) (k v : FVec Ideal S2048x64 .bf16) (r : Fin 256) (d : Fin 64) :
    headBody q k v (ix2 r d)
      = softmaxAvgK (fun m => ∑ d' : Fin 64, q (ix2 r d') * k (ix2 m d')) (fun m => v (ix2 m d)) := by
  have hs : (fun m' : Fin 2048 => scoresV q k (ix2 r m')) = fun m => ∑ d' : Fin 64, q (ix2 r d') * k (ix2 m d') :=
    funext fun m => scoresV_apply q k r m
  unfold headBody softmaxAvgK
  show Ideal.div _ _ = _
  rw [← hs]
  refine congrArg₂ Ideal.div ?_ ?_
  · refine (MatmulAt.matmul_plain_apply (M := 256) (K := 2048) (N := 64) none _ v r d).trans ?_
    refine Finset.sum_congr rfl fun m _ => ?_
    refine congrArg (· * v (ix2 m d)) ?_
    exact weightsV_apply (scoresV q k) r m
  · refine (broadcastTo_a1_ab_apply _ broadcasts_S256x1_S256x64 r d).trans ?_
    refine (shapeCast_a_a1_apply _ shapeCasts_S256_S256x1 r (0 : Fin 1)).trans ?_
    refine (rowSumRed_apply (weightsV (scoresV q k)) reduces_S256x2048_S256 (.inl rfl) rfl r).trans ?_
    exact Finset.sum_congr rfl fun m _ => weightsV_apply (scoresV q k) r m

/-! ## The two heads side by side -/

/-- Columns o … o+63 of a [1, n, 128] block, as an [n, 64] matrix: entry (r, d) is the block at (0, r, o + d). -/
theorem slab_apply {n : ℕ} (o : ℕ) (x : FVec Ideal ⟨3, ![1, n, 128]⟩ .bf16)
    (hc : (⟨3, ![1, n, 128]⟩ : Shape).ShapeCasts ⟨2, ![n, 128]⟩)
    (hs : (⟨2, ![n, 128]⟩ : Shape).Slices ![0, o] ⟨2, ![n, 64]⟩) (r : Fin n) (d : Fin 64) (k : Fin 128) (hk : k.val = o + d.val) :
    extractStridedSlice ⟨2, ![n, 64]⟩ ![0, o] (shapeCast ⟨2, ![n, 128]⟩ x hc) hs (ix2 r d) = x (ix3 (0 : Fin 1) r k) :=
  (slice2_axis1_apply o _ hs r d k hk).trans (shapeCast_1ab_ab_apply x hc r k)

/-- The body's value before the final cast: the two heads' results, each over its own 64 columns of the three blocks,
    concatenated along the columns. -/
theorem pay2_eq (x0 : FVec Ideal S1x256x128 .bf16) (x1 x2 : FVec Ideal S1x2048x128 .bf16) :
    k1_pay2 (F := Ideal) x0 x1 x2
      = concatenate S256x128 1
          [⟨S256x64, headBody
              (extractStridedSlice S256x64 ![0, 0] (shapeCast S256x128 x0 shapeCasts_S1x256x128_S256x128) slices_S256x128_o0_0_S256x64)
              (extractStridedSlice S2048x64 ![0, 0] (shapeCast S2048x128 x1 shapeCasts_S1x2048x128_S2048x128) slices_S2048x128_o0_0_S2048x64)
              (extractStridedSlice S2048x64 ![0, 0] (shapeCast S2048x128 x2 shapeCasts_S1x2048x128_S2048x128) slices_S2048x128_o0_0_S2048x64)⟩,
           ⟨S256x64, headBody
              (extractStridedSlice S256x64 ![0, 64] (shapeCast S256x128 x0 shapeCasts_S1x256x128_S256x128) slices_S256x128_o0_64_S256x64)
              (extractStridedSlice S2048x64 ![0, 64] (shapeCast S2048x128 x1 shapeCasts_S1x2048x128_S2048x128) slices_S2048x128_o0_64_S2048x64)
              (extractStridedSlice S2048x64 ![0, 64] (shapeCast S2048x128 x2 shapeCasts_S1x2048x128_S2048x128) slices_S2048x128_o0_64_S2048x64)⟩]
          concatenates_S256x64_S256x64_S256x128_d1 := rfl

/-- Column `d` of the head (first or second half of the 128 columns) that column `cc` lies in. -/
def halfCol (cc : Fin 128) (d : Fin 64) : Fin 128 := ⟨cc.val / 64 * 64 + d.val, by omega⟩

theorem payload_apply (x0 : FVec Ideal S1x256x128 .bf16) (x1 x2 : FVec Ideal S1x2048x128 .bf16) (r : Fin 256) (cc : Fin 128) :
    k1_pay1 (F := Ideal) (k1_pay2 (F := Ideal) x0 x1 x2) (ix3 (0 : Fin 1) r cc)
      = softmaxAvgK
          (fun m => ∑ d : Fin 64, x0 (ix3 (0 : Fin 1) r (halfCol cc d)) * x1 (ix3 (0 : Fin 1) m (halfCol cc d)))
          (fun m => x2 (ix3 (0 : Fin 1) m cc)) := by
  unfold k1_pay1
  refine (shapeCast_ab_1ab_apply _ shapeCasts_S256x128_S1x256x128 (0 : Fin 1) r cc).trans ?_
  refine (congrFun (pay2_eq x0 x1 x2) (ix2 r cc)).trans ?_
  by_cases hc : cc.val < 64
  · -- the first head: column cc of the result is column cc of the first piece
    refine (concatenate_pair_apply_left (t := S256x128) (s₁ := S256x64) (s₂ := S256x64) (1 : Fin 2) _ _ concatenates_S256x64_S256x64_S256x128_d1 (ix2 r cc) rfl
      (ix2 r (⟨cc.val, hc⟩ : Fin 64)) (fun b => by
        match b with
        | ⟨0, _⟩ => rfl
        | ⟨1, _⟩ => rfl)).trans ?_
    refine (headBody_apply _ _ _ r ⟨cc.val, hc⟩).trans ?_
    refine congrArg₂ softmaxAvgK (funext fun m => Finset.sum_congr rfl fun d _ => congrArg₂ (· * ·) ?_ ?_) (funext fun m => ?_)
    · exact slab_apply 0 x0 _ _ r d (halfCol cc d) (by show cc.val / 64 * 64 + d.val = 0 + d.val; omega)
    · exact slab_apply 0 x1 _ _ m d (halfCol cc d) (by show cc.val / 64 * 64 + d.val = 0 + d.val; omega)
    · exact slab_apply 0 x2 _ _ m ⟨cc.val, hc⟩ cc (by show cc.val = 0 + cc.val; omega)
  · -- the second head: column cc of the result is column cc − 64 of the second piece
    have hc' : cc.val - 64 < 64 := by have := cc.isLt; omega
    refine (concatenate_pair_apply_right (t := S256x128) (s₁ := S256x64) (s₂ := S256x64) (1 : Fin 2) _ _ concatenates_S256x64_S256x64_S256x128_d1 (ix2 r cc) rfl rfl
      (ix2 r (⟨cc.val - 64, hc'⟩ : Fin 64)) (fun b hb => by
        match b with
        | ⟨0, _⟩ => rfl
        | ⟨1, _⟩ => exact absurd rfl hb) (by show cc.val - 64 + 64 = cc.val; omega)).trans ?_
    refine (headBody_apply _ _ _ r ⟨cc.val - 64, hc'⟩).trans ?_
    refine congrArg₂ softmaxAvgK (funext fun m => Finset.sum_congr rfl fun d _ => congrArg₂ (· * ·) ?_ ?_) (funext fun m => ?_)
    · exact slab_apply 64 x0 _ _ r d (halfCol cc d) (by show cc.val / 64 * 64 + d.val = 64 + d.val; have := cc.isLt; omega)
    · exact slab_apply 64 x1 _ _ m d (halfCol cc d) (by show cc.val / 64 * 64 + d.val = 64 + d.val; have := cc.isLt; omega)
    · exact slab_apply 64 x2 _ _ m ⟨cc.val - 64, hc'⟩ cc (by show cc.val = 64 + (cc.val - 64); omega)

end Cert.KernelIdeal.Region1

end
-- ==== Proof.Region1.lean ====
/-
  The second region (attention) read as values: after its 128 grid points the output array holds the attention of the
  query, key and value arrays the region finds.
-/
import proofs.«411982_j27814208209356_3_alg».proof.Proof.Attention
import proofs.«411982_j27814208209356_3_alg».proof.Proof.Gen.KernelIdeal.Frame
import proofs.«411982_j27814208209356_3_alg».proof.Proof.LibMatmulAt
import Idealize.ShloMosaic.Lib.Pipeline.Value
import Idealize.ShloMosaic.Lib.ValueIdx
import Idealize.ShloMosaic.Lib.ValueLayout
import Idealize.ShloMosaic.PureOps.Ideal.Laws
import proofs.«411982_j27814208209356_3_alg».proof.Proof.Region1Payload
set_option maxRecDepth 16384

noncomputable section

open scoped BigOperators

namespace Cert.KernelIdeal.Region1

open Idealize.ShloMosaic Idealize.ShloMosaic.TcCoe Idealize.ShloMosaic.ValueIdx Idealize.SL.Sem
open Idealize.ShloMosaic.Pipeline (Dat)
open Cert.KernelIdeal Cert.KernelIdeal.Gen Cert.Attention

variable (V : (c : Dev nD) → (b : Ref sig .tc) → Buf (Elt Ideal) ((c : Thread nD τ).loc b))

/-- The zero offset of a whole-block access, as a constant function. -/
theorem hz : (![0, 0, 0] : Fin 3 → Nat) = fun _ => 0 := funext fun a => by fin_cases a <;> rfl

/-- The four block index maps, decided over the 128 grid points: the query block moves with the output block on
    every axis; the key and the value block share the output's batch and column-pair index and always start at
    token 0; the output's block index stays inside 2 × 8 × 8. -/
theorem idx_facts : ∀ t : Fin cfg1.N,
    win1_0.index t (0 : Fin 3) = win1_3.index t (0 : Fin 3)
    ∧ win1_0.index t (1 : Fin 3) = win1_3.index t (1 : Fin 3)
    ∧ win1_0.index t (2 : Fin 3) = win1_3.index t (2 : Fin 3)
    ∧ win1_1.index t (0 : Fin 3) = win1_3.index t (0 : Fin 3)
    ∧ win1_1.index t (1 : Fin 3) = 0
    ∧ win1_1.index t (2 : Fin 3) = win1_3.index t (2 : Fin 3)
    ∧ win1_2.index t (0 : Fin 3) = win1_3.index t (0 : Fin 3)
    ∧ win1_2.index t (1 : Fin 3) = 0
    ∧ win1_2.index t (2 : Fin 3) = win1_3.index t (2 : Fin 3)
    ∧ win1_3.index t (0 : Fin 3) ≤ 1
    ∧ win1_3.index t (1 : Fin 3) ≤ 7
    ∧ win1_3.index t (2 : Fin 3) ≤ 7 :=
  (by decide +kernel : ∀ t : Fin grid1.N, _)

/-- Every block of the 2 × 8 × 8 tiling of the output array is some grid point's. -/
theorem idx_onto : ∀ (q0 : Fin 2) (q1 : Fin 8) (q2 : Fin 8), ∃ t : Fin cfg1.N, win1_3.index t = ![q0.val, q1.val, q2.val] :=
  (by decide +kernel : ∀ (q0 : Fin 2) (q1 : Fin 8) (q2 : Fin 8), ∃ t : Fin grid1.N, win1_3.index t = ![q0.val, q1.val, q2.val])

/-! ## The staged blocks and the arrays they are cut from, at their literal shapes -/

/-- The block of 256 query rows by 128 columns staged at grid point `t`. -/
abbrev qblk (c : Dev nD) (t : Fin cfg1.N) : FVec Ideal S1x256x128 .bf16 := iblk1 (F := Ideal) V c 0 t
/-- The block of all 2048 key rows by 128 columns staged at grid point `t`. -/
abbrev kblk (c : Dev nD) (t : Fin cfg1.N) : FVec Ideal S1x2048x128 .bf16 := iblk1 (F := Ideal) V c 1 t
/-- The block of all 2048 value rows by 128 columns staged at grid point `t`. -/
abbrev vblk (c : Dev nD) (t : Fin cfg1.N) : FVec Ideal S1x2048x128 .bf16 := iblk1 (F := Ideal) V c 2 t
/-- The query array the region finds. -/
abbrev qarr (c : Dev nD) : FVec Ideal S2x2048x1024 .bf16 := V c main_v4_0
/-- The key array the region finds. -/
abbrev karr (c : Dev nD) : FVec Ideal S2x2048x1024 .bf16 := V c main_v4_1
/-- The value array the region finds. -/
abbrev varr (c : Dev nD) : FVec Ideal S2x2048x1024 .bf16 := V c main_v4_2

/-- Entry (r, cc) of the query block is the query array's entry at the output block's batch, row
    `(row block) · 256 + r` and column `(column pair) · 128 + cc`. -/
theorem qblk_apply (c : Dev nD) (t : Fin cfg1.N) (r : Fin 256) (cc : Fin 128) (b : Fin 2) (n : Fin 2048) (col : Fin 1024)
    (hb : b.val = win1_3.index t (0 : Fin 3)) (hn : n.val = win1_3.index t (1 : Fin 3) * 256 + r.val)
    (hc : col.val = win1_3.index t (2 : Fin 3) * 128 + cc.val) :
    qblk V c t (ix3 (0 : Fin 1) r cc) = qarr V c (ix3 b n col) := by
  obtain ⟨e0, e1, e2, -⟩ := idx_facts t
  show V c main_v4_0 (((cfg1.win 0).blk t).view.emb (ix3 (0 : Fin 1) r cc)) = V c main_v4_0 (ix3 b n col)
  refine congrArg _ ?_
  funext a; apply Fin.ext
  match a with
  | ⟨0, _⟩ => show win1_0.index t (0 : Fin 3) * 1 + 1 * 0 = b.val; omega
  | ⟨1, _⟩ => show win1_0.index t (1 : Fin 3) * 256 + 1 * r.val = n.val; omega
  | ⟨2, _⟩ => show win1_0.index t (2 : Fin 3) * 128 + 1 * cc.val = col.val; omega

/-- Entry (m, cc) of the key block is the key array's entry at the output block's batch, row `m` and column
    `(column pair) · 128 + cc`. -/
theorem kblk_apply (c : Dev nD) (t : Fin cfg1.N) (m : Fin 2048) (cc : Fin 128) (b : Fin 2) (col : Fin 1024)
    (hb : b.val = win1_3.index t (0 : Fin 3)) (hc : col.val = win1_3.index t (2 : Fin 3) * 128 + cc.val) :
    kblk V c t (ix3 (0 : Fin 1) m cc) = karr V c (ix3 b m col) := by
  obtain ⟨-, -, -, e0, e1, e2, -⟩ := idx_facts t
  show V c main_v4_1 (((cfg1.win 1).blk t).view.emb (ix3 (0 : Fin 1) m cc)) = V c main_v4_1 (ix3 b m col)
  refine congrArg _ ?_
  funext a; apply Fin.ext
  match a with
  | ⟨0, _⟩ => show win1_1.index t (0 : Fin 3) * 1 + 1 * 0 = b.val; omega
  | ⟨1, _⟩ => show win1_1.index t (1 : Fin 3) * 2048 + 1 * m.val = m.val; omega
  | ⟨2, _⟩ => show win1_1.index t (2 : Fin 3) * 128 + 1 * cc.val = col.val; omega

/-- Entry (m, cc) of the value block is the value array's entry at the output block's batch, row `m` and column
    `(column pair) · 128 + cc`. -/
theorem vblk_apply (c : Dev nD) (t : Fin cfg1.N) (m : Fin 2048) (cc : Fin 128) (b : Fin 2) (col : Fin 1024)
    (hb : b.val = win1_3.index t (0 : Fin 3)) (hc : col.val = win1_3.index t (2 : Fin 3) * 128 + cc.val) :
    vblk V c t (ix3 (0 : Fin 1) m cc) = varr V c (ix3 b m col) := by
  obtain ⟨-, -, -, -, -, -, e0, e1, e2, -⟩ := idx_facts t
  show V c main_v4_2 (((cfg1.win 2).blk t).view.emb (ix3 (0 : Fin 1) m cc)) = V c main_v4_2 (ix3 b m col)
  refine congrArg _ ?_
  funext a; apply Fin.ext
  match a with
  | ⟨0, _⟩ => show win1_2.index t (0 : Fin 3) * 1 + 1 * 0 = b.val; omega
  | ⟨1, _⟩ => show win1_2.index t (1 : Fin 3) * 2048 + 1 * m.val = m.val; omega
  | ⟨2, _⟩ => show win1_2.index t (2 : Fin 3) * 128 + 1 * cc.val = col.val; omega

/-! ## One element of the block a grid point writes -/

/-- In array column `p · 128 + cc`, column `d` of that column's head is `p · 128` plus column `d` of `cc`'s half:
    a pair of heads is 128 columns, a head 64. -/
theorem headCol_headOf_val (col : Fin 1024) (cc : Fin 128) (p : Nat) (hc : col.val = p * 128 + cc.val) (d : Fin 64) :
    (headCol (headOf col) d).val = p * 128 + (halfCol cc d).val := by
  simp only [headCol, headOf, halfCol]
  omega

/-- Entry (r, cc) of what the body computes from the blocks staged at `t` is the attention of the three arrays at
    the output block's batch, row `(row block) · 256 + r` and column `(column pair) · 128 + cc`. -/
theorem point_eq (c : Dev nD) (t : Fin cfg1.N) (r : Fin 256) (cc : Fin 128) (b : Fin 2) (n : Fin 2048) (col : Fin 1024)
    (hb : b.val = win1_3.index t (0 : Fin 3)) (hn : n.val = win1_3.index t (1 : Fin 3) * 256 + r.val)
    (hc : col.val = win1_3.index t (2 : Fin 3) * 128 + cc.val) :
    k1_pay1 (F := Ideal) (k1_pay2 (F := Ideal) (qblk V c t) (kblk V c t) (vblk V c t)) (ix3 (0 : Fin 1) r cc)
      = attnAt (qarr V c) (karr V c) (varr V c) b n col := by
  refine (payload_apply (qblk V c t) (kblk V c t) (vblk V c t) r cc).trans ?_
  have hs : (fun m : Fin 2048 => ∑ d : Fin 64,
        qblk V c t (ix3 (0 : Fin 1) r (halfCol cc d)) * kblk V c t (ix3 (0 : Fin 1) m (halfCol cc d)))
      = (fun m : Fin 2048 => scoreK (qarr V c) (karr V c) b (headOf col) n m) := by
    funext m
    show _ = ∑ d : Fin 64, qarr V c (ix3 b n (headCol (headOf col) d)) * karr V c (ix3 b m (headCol (headOf col) d))
    refine Finset.sum_congr rfl fun d _ => ?_
    have hd := headCol_headOf_val col cc (win1_3.index t (2 : Fin 3)) hc d
    have h1 := qblk_apply V c t r (halfCol cc d) b n (headCol (headOf col) d) hb hn hd
    have h2 := kblk_apply V c t m (halfCol cc d) b (headCol (headOf col) d) hb hd
    rw [h1, h2]
  have hv : (fun m : Fin 2048 => vblk V c t (ix3 (0 : Fin 1) m cc)) = (fun m : Fin 2048 => varr V c (ix3 b m col)) :=
    funext fun m => vblk_apply V c t m cc b col hb hc
  show softmaxAvgK _ _ = softmaxAvgK (fun m => scoreK (qarr V c) (karr V c) b (headOf col) n m) (fun m => varr V c (ix3 b m col))
  rw [hs, hv]

/-- The same at an arbitrary index of the block, against the array index the block's position sends it to. -/
theorem block_point (c : Dev nD) (t : Fin cfg1.N) (j : S1x256x128.Idx) :
    k1_pay1 (F := Ideal) (k1_pay2 (F := Ideal) (qblk V c t) (kblk V c t) (vblk V c t)) j
      = attnArr (qarr V c) (karr V c) (varr V c) (((cfg1.win 3).blk t).view.emb j) := by
  obtain ⟨u, r, cc, rfl⟩ : ∃ (u : Fin 1) (r : Fin 256) (cc : Fin 128), j = ix3 u r cc := ⟨j 0, j 1, j 2, eq_ix3 j⟩
  obtain rfl : u = 0 := Subsingleton.elim _ _
  exact point_eq V c t r cc
    ((((cfg1.win 3).blk t).view.emb (ix3 (0 : Fin 1) r cc) : S2x2048x1024.Idx) 0)
    ((((cfg1.win 3).blk t).view.emb (ix3 (0 : Fin 1) r cc) : S2x2048x1024.Idx) 1)
    ((((cfg1.win 3).blk t).view.emb (ix3 (0 : Fin 1) r cc) : S2x2048x1024.Idx) 2)
    (by show win1_3.index t (0 : Fin 3) * 1 + 1 * 0 = _; omega)
    (by show win1_3.index t (1 : Fin 3) * 256 + 1 * r.val = _; omega)
    (by show win1_3.index t (2 : Fin 3) * 128 + 1 * cc.val = _; omega)

/-! ## What a grid point writes back -/

/-- Grid point `t` writes back its block of the attention of the three arrays. -/
theorem flushed_eq (c : Dev nD) (t : Fin cfg1.N) :
    (dat1 (F := Ideal) V c).flushed 3 t
      = ((cfg1.win 3).blk t).view.read (Elt Ideal) (attnArr (V c main_v4_0) (V c main_v4_1) (V c main_v4_2)) := by
  show (cfg1.win 3).cut (grid1.coords t) ((dat1 (F := Ideal) V c).after 3 t) = _
  rw [after1_3]
  unfold out1_3
  rw [View.canon_unit_zero hz]
  simp only [View.ld_unit_zero (S := S1x256x128) hz, View.ld_unit_zero (S := S1x2048x128) hz]
  funext j
  exact block_point V c t j

/-! ## From the blocks to the array -/

/-- An index of the output array lies in grid point `t`'s block iff each coordinate lies in the block's range on
    its axis. -/
theorem mem_blk (t : Fin cfg1.N) (i : S2x2048x1024.Idx) :
    i ∈ ((cfg1.win 3).blk t).view.set ↔ ∀ a : Fin 3, win1_3.index t a * S1x256x128.size a ≤ (i a).val
      ∧ (i a).val < win1_3.index t a * S1x256x128.size a + S1x256x128.size a := by
  show i ∈ ((View.whole main_v5).slice (win1_3.rect t)).set ↔ _
  rw [View.set_slice_whole, Rect.mem_set_unit]
  exact Iff.rfl

/-- The blocks tile the output array: entry (b, n, col) lies in the block of batch `b`, row block `n / 256` and
    column pair `col / 128`, which some grid point writes back. -/
theorem cover (i : S2x2048x1024.Idx) :
    ∃ t : Fin cfg1.N, (cfg1.win 3).flush t = true ∧ i ∈ ((cfg1.win 3).blk t).view.set := by
  have hi0 : (i 0).val < 2 := (i 0).isLt
  have hi1 : (i 1).val < 2048 := (i 1).isLt
  have hi2 : (i 2).val < 1024 := (i 2).isLt
  obtain ⟨t, ht⟩ := idx_onto ⟨(i 0).val, by omega⟩ ⟨(i 1).val / 256, by omega⟩ ⟨(i 2).val / 128, by omega⟩
  have q0 : win1_3.index t (0 : Fin 3) = (i 0).val := congrFun ht 0
  have q1 : win1_3.index t (1 : Fin 3) = (i 1).val / 256 := congrFun ht 1
  have q2 : win1_3.index t (2 : Fin 3) = (i 2).val / 128 := congrFun ht 2
  refine ⟨t, flush1_3 t, ?_⟩
  rw [mem_blk]
  intro a
  match a with
  | ⟨0, _⟩ =>
    show win1_3.index t (0 : Fin 3) * 1 ≤ (i 0).val ∧ (i 0).val < win1_3.index t (0 : Fin 3) * 1 + 1; omega
  | ⟨1, _⟩ =>
    show win1_3.index t (1 : Fin 3) * 256 ≤ (i 1).val ∧ (i 1).val < win1_3.index t (1 : Fin 3) * 256 + 256; omega
  | ⟨2, _⟩ =>
    show win1_3.index t (2 : Fin 3) * 128 ≤ (i 2).val ∧ (i 2).val < win1_3.index t (2 : Fin 3) * 128 + 128; omega

/-- After its 128 grid points the region's output array holds the attention of the query, key and value arrays the
    region finds: every point writes back its block of it, and the blocks tile the array. -/
theorem final_out (c : Dev nD) :
    (dat1 (F := Ideal) V c).arrAt 3 cfg1.N = attnArr (V c main_v4_0) (V c main_v4_1) (V c main_v4_2) :=
  (dat1 (F := Ideal) V c).arrAt_eq_of_cover 3 (attnArr (V c main_v4_0) (V c main_v4_1) (V c main_v4_2))
    (fun t _ => flushed_eq V c t) (fun i => cover i)

end Cert.KernelIdeal.Region1

end
-- ==== Proof.RefValue.lean ====
/-
  The reference program's result, read one operation at a time, is the second arrangement of the attention average.

  The program projects every token onto the 3072 weight rows, splits the rows of head `h` into its 64 query, key and
  value lanes (row `h·192 + j·64 + d` for j = 0, 1, 2), forms for each head the 2048 × 2048 scores as dot products of
  query and key lanes times `1 / √64`, subtracts each row's maximum, exponentiates, divides every weight by the row's
  sum of exponentials, averages the value lanes with those weights, and lays head `h`'s lane `d` at column `h·64 + d`.

  Each stage is read at an index given by its coordinates: first the index arithmetic of the reshapes, transposes and
  slices (every composed index function sends coordinates to coordinates), then the three projected arrays, the
  scaled score, the row maximum as a fold of `max` from −∞ over the key tokens, the exponentials, their sum, the
  normalised weights, the weighted sum, and last the column ↦ (head, lane) rearrangement.
-/
import proofs.«411982_j27814208209356_3_alg».proof.Proof.Attention
import proofs.«411982_j27814208209356_3_alg».proof.Proof.Gen.ReferenceIdeal.Read
import Idealize.ShloMosaic.Lib.Pipeline.Value
import Idealize.ShloMosaic.Lib.ValueIdx
import Idealize.ShloMosaic.PureOps.Ideal.Laws
set_option maxRecDepth 16384

noncomputable section

open scoped BigOperators

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Read Cert.Attention

theorem idx_v4 (b : Fin 2) (h : Fin 16) (n : Fin 2048) (d : Fin 64) :
    idx_main_v4 (ix4 b h n d) = ix5 (0 : Fin 1) b h n d :=
  funext fun a => Fin.ext (by
    have hb := b.isLt; have hh := h.isLt; have hn := n.isLt; have hd := d.isLt
    match a with
    | ⟨0, _⟩ => rfl
    | ⟨1, _⟩ => show (((b.val * 16 + h.val) * 2048 + n.val) * 64 + d.val) / 2097152 % 2 = b.val; omega
    | ⟨2, _⟩ => show (((b.val * 16 + h.val) * 2048 + n.val) * 64 + d.val) / 131072 % 16 = h.val; omega
    | ⟨3, _⟩ => show (((b.val * 16 + h.val) * 2048 + n.val) * 64 + d.val) / 64 % 2048 = n.val; omega
    | ⟨4, _⟩ => show (((b.val * 16 + h.val) * 2048 + n.val) * 64 + d.val) % 64 = d.val; omega)

theorem idx_v3 (b : Fin 2) (h : Fin 16) (n : Fin 2048) (d : Fin 64) :
    idx_main_v3 (ix5 (0 : Fin 1) b h n d) = ix5 (0 : Fin 3) b h n d :=
  funext fun a => Fin.ext (by
    match a with
    | ⟨0, _⟩ => rfl
    | ⟨1, _⟩ => rfl
    | ⟨2, _⟩ => rfl
    | ⟨3, _⟩ => rfl
    | ⟨4, _⟩ => rfl)

theorem idx_v2 (j : Fin 3) (b : Fin 2) (h : Fin 16) (n : Fin 2048) (d : Fin 64) :
    idx_main_v2 (ix5 j b h n d) = ix5 b n h j d :=
  funext fun a => Fin.ext (by
    match a with
    | ⟨0, _⟩ => rfl
    | ⟨1, _⟩ => rfl
    | ⟨2, _⟩ => rfl
    | ⟨3, _⟩ => rfl
    | ⟨4, _⟩ => rfl)

theorem idx_v1 (j : Fin 3) (b : Fin 2) (h : Fin 16) (n : Fin 2048) (d : Fin 64) :
    idx_main_v1 (ix5 b n h j d) = ix3 b n (qkvRow h j d) :=
  funext fun a => Fin.ext (by
    have hb := b.isLt; have hh := h.isLt; have hn := n.isLt; have hd := d.isLt; have hj := j.isLt
    match a with
    | ⟨0, _⟩ => show ((((b.val * 2048 + n.val) * 16 + h.val) * 3 + j.val) * 64 + d.val) / 6291456 = b.val; omega
    | ⟨1, _⟩ => show ((((b.val * 2048 + n.val) * 16 + h.val) * 3 + j.val) * 64 + d.val) / 3072 % 2048 = n.val; omega
    | ⟨2, _⟩ => show ((((b.val * 2048 + n.val) * 16 + h.val) * 3 + j.val) * 64 + d.val) % 3072 = h.val * 192 + j.val * 64 + d.val; omega)

theorem lidx_v0 (b : Fin 2) (n : Fin 2048) (r : Fin 3072) (e : Fin 1024) :
    lidx_main_v0 (ix3 b n r) e = ix3 b n e :=
  funext fun a => Fin.ext (by
    match a with
    | ⟨0, _⟩ => rfl
    | ⟨1, _⟩ => rfl
    | ⟨2, _⟩ => rfl)

theorem ridx_v0 (b : Fin 2) (n : Fin 2048) (r : Fin 3072) (e : Fin 1024) :
    ridx_main_v0 (ix3 b n r) e = ix2 r e :=
  funext fun a => Fin.ext (by
    match a with
    | ⟨0, _⟩ => rfl
    | ⟨1, _⟩ => rfl)

theorem idx_v5 (b : Fin 2) (h : Fin 16) (n : Fin 2048) (d : Fin 64) :
    idx_main_v5 (ix5 (0 : Fin 1) b h n d) = ix5 (1 : Fin 3) b h n d :=
  funext fun a => Fin.ext (by
    match a with
    | ⟨0, _⟩ => rfl
    | ⟨1, _⟩ => rfl
    | ⟨2, _⟩ => rfl
    | ⟨3, _⟩ => rfl
    | ⟨4, _⟩ => rfl)

theorem idx_v7 (b : Fin 2) (h : Fin 16) (n : Fin 2048) (d : Fin 64) :
    idx_main_v7 (ix5 (0 : Fin 1) b h n d) = ix5 (2 : Fin 3) b h n d :=
  funext fun a => Fin.ext (by
    match a with
    | ⟨0, _⟩ => rfl
    | ⟨1, _⟩ => rfl
    | ⟨2, _⟩ => rfl
    | ⟨3, _⟩ => rfl
    | ⟨4, _⟩ => rfl)

theorem idx_v6 (b : Fin 2) (h : Fin 16) (n : Fin 2048) (d : Fin 64) :
    idx_main_v6 (ix4 b h n d) = ix5 (0 : Fin 1) b h n d := idx_v4 b h n d

theorem idx_v8 (b : Fin 2) (h : Fin 16) (n : Fin 2048) (d : Fin 64) :
    idx_main_v8 (ix4 b h n d) = ix5 (0 : Fin 1) b h n d := idx_v4 b h n d

/-- The transposed five-axis array at (j, b, h, n, d) is row `h·192 + j·64 + d` of the projection of token (b, n). -/
theorem v2_at (a0 : (⟨S2x2048x1024, .f32⟩ : BufTy).Contents (Elt Ideal)) (a1 : (⟨S3072x1024, .f32⟩ : BufTy).Contents (Elt Ideal))
    (j : Fin 3) (b : Fin 2) (h : Fin 16) (n : Fin 2048) (d : Fin 64) :
    val_main_v2 (F := Ideal) a0 a1 (ix5 j b h n d) = proj a0 a1 b n (qkvRow h j d) := by
  rw [val_main_v2_apply, idx_v2, val_main_v1_apply, idx_v1, val_main_v0_apply]
  unfold proj
  refine Finset.sum_congr rfl fun e _ => ?_
  rw [lidx_v0, ridx_v0]

theorem q_at (a0 : (⟨S2x2048x1024, .f32⟩ : BufTy).Contents (Elt Ideal)) (a1 : (⟨S3072x1024, .f32⟩ : BufTy).Contents (Elt Ideal))
    (b : Fin 2) (h : Fin 16) (n : Fin 2048) (d : Fin 64) :
    val_main_v4 (F := Ideal) a0 a1 (ix4 b h n d) = proj a0 a1 b n (qkvRow h 0 d) := by
  rw [val_main_v4_apply, idx_v4, val_main_v3_apply, idx_v3, v2_at]

theorem k_at (a0 : (⟨S2x2048x1024, .f32⟩ : BufTy).Contents (Elt Ideal)) (a1 : (⟨S3072x1024, .f32⟩ : BufTy).Contents (Elt Ideal))
    (b : Fin 2) (h : Fin 16) (n : Fin 2048) (d : Fin 64) :
    val_main_v6 (F := Ideal) a0 a1 (ix4 b h n d) = proj a0 a1 b n (qkvRow h 1 d) := by
  rw [val_main_v6_apply, idx_v6, val_main_v5_apply, idx_v5, v2_at]

theorem v_at (a0 : (⟨S2x2048x1024, .f32⟩ : BufTy).Contents (Elt Ideal)) (a1 : (⟨S3072x1024, .f32⟩ : BufTy).Contents (Elt Ideal))
    (b : Fin 2) (h : Fin 16) (n : Fin 2048) (d : Fin 64) :
    val_main_v8 (F := Ideal) a0 a1 (ix4 b h n d) = proj a0 a1 b n (qkvRow h 2 d) := by
  rw [val_main_v8_apply, idx_v8, val_main_v7_apply, idx_v7, v2_at]

/-! ## The scaled scores -/

theorem lidx_v11 (b : Fin 2) (h : Fin 16) (n m : Fin 2048) (d : Fin 64) :
    lidx_main_v11 (ix4 b h n m) d = ix4 b h n d :=
  funext fun a => Fin.ext (by
    match a with
    | ⟨0, _⟩ => rfl
    | ⟨1, _⟩ => rfl
    | ⟨2, _⟩ => rfl
    | ⟨3, _⟩ => rfl)

theorem ridx_v11 (b : Fin 2) (h : Fin 16) (n m : Fin 2048) (d : Fin 64) :
    ridx_main_v11 (ix4 b h n m) d = ix4 b h m d :=
  funext fun a => Fin.ext (by
    match a with
    | ⟨0, _⟩ => rfl
    | ⟨1, _⟩ => rfl
    | ⟨2, _⟩ => rfl
    | ⟨3, _⟩ => rfl)

/-- The broadcast scale is `1 / √64` at every index. -/
theorem scale_at (i : S2x16x2048x2048.Idx) :
    val_main_v12 (F := Ideal) i
      = Ideal.div (Ideal.ofBits .f32 0x3F800000#32) (Ideal.sqrt (Ideal.ofBits .f32 0x42800000#32)) := by
  rw [val_main_v12_apply, val_main_v10_apply, val_main_v9_apply, val_main_cst_apply, val_main_cst_0_apply]
  rfl

/-- The scaled score array at (b, h, n, m) is head `h`'s score of query token `n` against key token `m`. -/
theorem score_at (a0 : (⟨S2x2048x1024, .f32⟩ : BufTy).Contents (Elt Ideal)) (a1 : (⟨S3072x1024, .f32⟩ : BufTy).Contents (Elt Ideal))
    (b : Fin 2) (h : Fin 16) (n m : Fin 2048) :
    val_main_v13 (F := Ideal) a0 a1 (ix4 b h n m) = scoreR a0 a1 b h n m := by
  rw [val_main_v13_apply, scale_at, val_main_v11_apply]
  unfold scoreR
  refine congrArg (· * _) (Finset.sum_congr rfl fun d _ => ?_)
  rw [lidx_v11, ridx_v11, q_at, k_at]

/-! ## The row maximum -/

/-- The word `0xFF800000` is −∞. -/
theorem negInf_f32 : Ideal.ofBits .f32 0xFF800000#32 = (⊥ : EReal) := by
  simp [Ideal.ofBits, Ideal.ieee]

/-- Result index (b, h, n) of a reduction over the last axis, with key token `m` inserted there, is (b, h, n, m). -/
theorem lift_d3 (hR : S2x16x2048x2048.Reduces [3] S2x16x2048) (b : Fin 2) (h : Fin 16) (n m : Fin 2048) :
    hR.lift (ix3 b h n) m = ix4 b h n m :=
  funext fun a => Fin.ext (by
    match a with
    | ⟨0, _⟩ => rfl
    | ⟨1, _⟩ => rfl
    | ⟨2, _⟩ => rfl
    | ⟨3, _⟩ => rfl)

/-- A maximum-reduction from −∞ over the last axis of any array of this shape is, at (b, h, n), the row's maximum. -/
theorem reduceMax_at (y : S2x16x2048x2048.Idx → EReal) (b : Fin 2) (h : Fin 16) (n : Fin 2048) :
    Host.reduce (FloatOps.maximumf (F := Ideal) (φ := .f32)) y (val_main_cst_1 (F := Ideal)) reducesTo_S2x16x2048x2048_S2x16x2048_d3 h_S_ (ix3 b h n)
      = rowMax (fun m : Fin 2048 => y (ix4 b h n m)) := by
  have hR : S2x16x2048x2048.Reduces [3] S2x16x2048 := by decide
  rw [Host.reduce_eq_fold_single (FloatOps.maximumf (F := Ideal) (φ := .f32)) y _ reducesTo_S2x16x2048x2048_S2x16x2048_d3 hR h_S_ (ix3 b h n)]
  rw [val_main_cst_1_apply]
  unfold rowMax
  rw [Ideal.ofBits_def, negInf_f32]
  have e : (y ∘ hR.lift (ix3 b h n)) = (fun m : Fin 2048 => y (ix4 b h n m)) := funext fun m => congrArg y (lift_d3 hR b h n m)
  rw [e]
  rfl

theorem rowMax_at (a0 : (⟨S2x2048x1024, .f32⟩ : BufTy).Contents (Elt Ideal)) (a1 : (⟨S3072x1024, .f32⟩ : BufTy).Contents (Elt Ideal))
    (b : Fin 2) (h : Fin 16) (n : Fin 2048) :
    val_main_v16 (F := Ideal) a0 a1 (ix3 b h n) = rowMax (fun m => scoreR a0 a1 b h n m) := by
  rw [val_main_v16_apply, val_main_v15_apply, val_main_cst_2_apply]
  unfold val_main_v14
  rw [reduceMax_at]
  rw [Ideal.maximumf_def, Ideal.ofBits_def, negInf_f32, bot_sup_eq]
  exact congrArg rowMax (funext fun m => score_at a0 a1 b h n m)

/-! ## The exponentials, their sum, the normalised weights -/

theorem idx_v18 (b : Fin 2) (h : Fin 16) (n m : Fin 2048) :
    idx_main_v17 (idx_main_v18 (ix4 b h n m)) = ix3 b h n :=
  funext fun a => Fin.ext (by
    match a with
    | ⟨0, _⟩ => rfl
    | ⟨1, _⟩ => rfl
    | ⟨2, _⟩ => rfl)

theorem idx_v23 (b : Fin 2) (h : Fin 16) (n m : Fin 2048) :
    idx_main_v22 (idx_main_v23 (ix4 b h n m)) = ix3 b h n :=
  funext fun a => Fin.ext (by
    match a with
    | ⟨0, _⟩ => rfl
    | ⟨1, _⟩ => rfl
    | ⟨2, _⟩ => rfl)

theorem idx_v21 (b : Fin 2) (h : Fin 16) (n m : Fin 2048) :
    idx_main_v21 (ix3 b h n) m = ix4 b h n m :=
  funext fun a => Fin.ext (by
    match a with
    | ⟨0, _⟩ => rfl
    | ⟨1, _⟩ => rfl
    | ⟨2, _⟩ => rfl
    | ⟨3, _⟩ => rfl)

/-- The exponential array at (b, h, n, m) is the unnormalised softmax weight of key token `m`. -/
theorem exp_at (a0 : (⟨S2x2048x1024, .f32⟩ : BufTy).Contents (Elt Ideal)) (a1 : (⟨S3072x1024, .f32⟩ : BufTy).Contents (Elt Ideal))
    (b : Fin 2) (h : Fin 16) (n m : Fin 2048) :
    val_main_v20 (F := Ideal) a0 a1 (ix4 b h n m) = expShift (fun m' => scoreR a0 a1 b h n m') m := by
  rw [val_main_v20_apply, val_main_v19_apply, val_main_v18_apply, val_main_v17_apply, idx_v18, rowMax_at, score_at,
    Ideal.hostUnary_exp_def, Ideal.subf_def]
  rfl

/-- The sum array at (b, h, n) is the normaliser. -/
theorem sum_at (a0 : (⟨S2x2048x1024, .f32⟩ : BufTy).Contents (Elt Ideal)) (a1 : (⟨S3072x1024, .f32⟩ : BufTy).Contents (Elt Ideal))
    (b : Fin 2) (h : Fin 16) (n : Fin 2048) :
    val_main_v21 (F := Ideal) a0 a1 (ix3 b h n) = ∑ m : Fin 2048, expShift (fun m' => scoreR a0 a1 b h n m') m := by
  rw [val_main_v21_apply, val_main_cst_3_apply, Ideal.ofBits_def, Ideal.ofBits_zero_f32, zero_add]
  refine Finset.sum_congr rfl fun m _ => ?_
  rw [idx_v21, exp_at]

/-- The normalised weight array at (b, h, n, m). -/
theorem weight_at (a0 : (⟨S2x2048x1024, .f32⟩ : BufTy).Contents (Elt Ideal)) (a1 : (⟨S3072x1024, .f32⟩ : BufTy).Contents (Elt Ideal))
    (b : Fin 2) (h : Fin 16) (n m : Fin 2048) :
    val_main_v24 (F := Ideal) a0 a1 (ix4 b h n m)
      = Ideal.div (expShift (fun m' => scoreR a0 a1 b h n m') m) (∑ m'' : Fin 2048, expShift (fun m' => scoreR a0 a1 b h n m') m'') := by
  rw [val_main_v24_apply, val_main_v23_apply, val_main_v22_apply, idx_v23, sum_at, exp_at, Ideal.hostDivf_def]

/-! ## The weighted average and the final rearrangement -/

theorem lidx_v25 (b : Fin 2) (h : Fin 16) (n m : Fin 2048) (d : Fin 64) :
    lidx_main_v25 (ix4 b h n d) m = ix4 b h n m :=
  funext fun a => Fin.ext (by
    match a with
    | ⟨0, _⟩ => rfl
    | ⟨1, _⟩ => rfl
    | ⟨2, _⟩ => rfl
    | ⟨3, _⟩ => rfl)

theorem ridx_v25 (b : Fin 2) (h : Fin 16) (n m : Fin 2048) (d : Fin 64) :
    ridx_main_v25 (ix4 b h n d) m = ix4 b h m d :=
  funext fun a => Fin.ext (by
    match a with
    | ⟨0, _⟩ => rfl
    | ⟨1, _⟩ => rfl
    | ⟨2, _⟩ => rfl
    | ⟨3, _⟩ => rfl)

/-- The attention array at (b, h, n, d) is the second arrangement of the average. -/
theorem attn_at (a0 : (⟨S2x2048x1024, .f32⟩ : BufTy).Contents (Elt Ideal)) (a1 : (⟨S3072x1024, .f32⟩ : BufTy).Contents (Elt Ideal))
    (b : Fin 2) (h : Fin 16) (n : Fin 2048) (d : Fin 64) :
    val_main_v25 (F := Ideal) a0 a1 (ix4 b h n d) = refAt a0 a1 b n h d := by
  rw [val_main_v25_apply]
  unfold refAt softmaxAvgR
  refine Finset.sum_congr rfl fun m _ => ?_
  rw [lidx_v25, ridx_v25, weight_at, v_at]

theorem idx_v26 (b : Fin 2) (n : Fin 2048) (h : Fin 16) (d : Fin 64) :
    idx_main_v26 (ix4 b n h d) = ix4 b h n d :=
  funext fun a => Fin.ext (by
    match a with
    | ⟨0, _⟩ => rfl
    | ⟨1, _⟩ => rfl
    | ⟨2, _⟩ => rfl
    | ⟨3, _⟩ => rfl)

/-- Column `c` of the result is lane `c % 64` of head `c / 64`. -/
theorem idx_v27 (b : Fin 2) (n : Fin 2048) (c : Fin 1024) :
    idx_main_v27 (ix3 b n c) = ix4 b n (headOf c) (laneOf c) :=
  funext fun a => Fin.ext (by
    have hb := b.isLt; have hn := n.isLt; have hc := c.isLt
    match a with
    | ⟨0, _⟩ => show ((b.val * 2048 + n.val) * 1024 + c.val) / 2097152 = b.val; omega
    | ⟨1, _⟩ => show ((b.val * 2048 + n.val) * 1024 + c.val) / 1024 % 2048 = n.val; omega
    | ⟨2, _⟩ => show ((b.val * 2048 + n.val) * 1024 + c.val) / 64 % 16 = c.val / 64; omega
    | ⟨3, _⟩ => show ((b.val * 2048 + n.val) * 1024 + c.val) % 64 = c.val % 64; omega)

theorem ref_eq (a0 : (⟨S2x2048x1024, .f32⟩ : BufTy).Contents (Elt Ideal)) (a1 : (⟨S3072x1024, .f32⟩ : BufTy).Contents (Elt Ideal)) :
    val_main_v27 (F := Ideal) a0 a1 = refValue a0 a1 := by
  funext i
  obtain ⟨b, n, c, rfl⟩ : ∃ (b : Fin 2) (n : Fin 2048) (c : Fin 1024), i = ix3 b n c := ⟨i 0, i 1, i 2, eq_ix3 i⟩
  rw [val_main_v27_apply, idx_v27, val_main_v26_apply, idx_v26, attn_at, refValue_apply]

end Cert.ReferenceIdeal.RefValue

end
-- ==== Proof.Finite.lean ====
/-
  The precondition read: every entry of both argument arrays is a real number.

  The precondition is the conjunction of two `all`s: for each argument, every entry's absolute value `max x (−x)` is
  strictly below the word of +∞. An extended real whose absolute value is below +∞ is neither infinity.
-/
import proofs.«411982_j27814208209356_3_alg».proof.Proof.Attention
import proofs.«411982_j27814208209356_3_alg».proof.Defs
import proofs.«411982_j27814208209356_3_alg».proof.Proof.Gen.Pre_finite_inputs
import Idealize.ShloMosaic.Lib.ReduceAll
import Idealize.ShloMosaic.Lib.ValueIdx

set_option maxRecDepth 16384

noncomputable section

open scoped BigOperators

namespace Cert.Finite

open Idealize.ShloMosaic Idealize.ShloMosaic.ValueIdx Cert.Attention

/-- The word `0x7F800000` denotes +∞. -/
theorem top_word : Ideal.ofBits .f32 0x7F800000#32 = (⊤ : EReal) := by
  simp [Ideal.ofBits, Ideal.ieee]

/-- An extended real whose absolute value `max x (−x)` compares strictly below +∞ is a real number. -/
theorem real_of_abs_lt_top (x : EReal) (h : Ideal.cmp .olt (max x (-x)) ⊤ = 1#1) : ∃ r : ℝ, x = (r : EReal) := by
  have hlt : max x (-x) < ⊤ := by
    unfold Ideal.cmp at h
    by_contra hn
    simp [hn] at h
  induction x using EReal.rec with
  | bot => simp at hlt
  | coe r => exact ⟨r, rfl⟩
  | top => simp at hlt

instance : Subsingleton Cert.Pre_finite_inputs.S_.Idx := ⟨fun a b => funext fun d => d.elim0⟩

/-- Under the precondition both arguments are real-valued. -/
theorem real_of_pre (a0 : Act.Idx → EReal) (a1 : Wt.Idx → EReal)
    (h : Cert.Pre_finite_inputs.fn (F := Ideal) a0 a1 = (fun _ => 1#1)) : RealValued a0 ∧ RealValued a1 := by
  have h0 := congrFun h ix0
  dsimp only [Cert.Pre_finite_inputs.fn] at h0
  obtain ⟨hA, hB⟩ := IntOp.andi_eq_one.1 h0
  refine ⟨fun i => ?_, fun i => ?_⟩
  · have e := Host.reduce_andi_all _ _ _ _ ix0 hA i
    refine real_of_abs_lt_top (a0 i) ?_
    rw [← top_word]
    exact e
  · have e := Host.reduce_andi_all _ _ _ _ ix0 hB i
    refine real_of_abs_lt_top (a1 i) ?_
    rw [← top_word]
    exact e

end Cert.Finite

end
-- ==== Proof.lean ====
/-
  Multi-head softmax attention over a fused query/key/value projection: a two-stage kernel against the textbook
  formulation, equal over the extended reals for finite inputs.

  The kernel first repacks the weight's rows from (head, q|k|v, lane) to (q|k|v, head, lane) and projects the
  activations against it in row tiles, scaling the query third by 1/8 as it is stored; its second stage takes, per batch,
  pair of heads and tile of 256 query rows, the scores against all 2048 keys, subtracts the row maximum, exponentiates,
  and divides the weighted sum of the values ONCE by the row's normaliser. The reference projects against the weight as
  given, splits heads by reshaping, scales the finished scores by 1/√64, normalises every softmax weight and then forms
  the weighted sum.

  At the ideal instance both are functions of the two argument arrays: `Cert.Attention.kernelValue` and
  `Cert.Attention.refValue`. The kernel's run ends with its result array at what the second stage's write-backs leave
  (`Run.run_main`), which is the attention of the first stage's three output arrays (`Region1.final_out`), which are the
  projections of the arrays the host operations leave (`Region0.final_q/k/v`, `HostSide`). The reference's run ends at
  its operations' composed term, read one operation at a time (`RefValue.ref_eq`). Under the precondition every entry
  of both arguments is a real number (`Finite.real_of_pre`), and on real arguments the two arrangements agree
  (`kernelValue_eq_refValue`): sums of products of reals are real, the row maximum of finitely many reals is real, the
  exponentials are positive reals, so the normaliser is a nonzero real and division distributes over the sum; and
  √64 = 8 makes both scales 1/8, which moves across the dot product because every factor is real.
-/
import proofs.«411982_j27814208209356_3_alg».proof.Defs
import proofs.«411982_j27814208209356_3_alg».proof.Proof.Gen.Kernel
import proofs.«411982_j27814208209356_3_alg».proof.Proof.Gen.Kernel.Skeleton
import proofs.«411982_j27814208209356_3_alg».proof.Proof.Gen.Kernel.Launch
import proofs.«411982_j27814208209356_3_alg».proof.Proof.Gen.Kernel.Points
import proofs.«411982_j27814208209356_3_alg».proof.Proof.Gen.Kernel.Frame
import proofs.«411982_j27814208209356_3_alg».proof.Proof.Gen.KernelIdeal
import proofs.«411982_j27814208209356_3_alg».proof.Proof.Gen.KernelIdeal.Skeleton
import proofs.«411982_j27814208209356_3_alg».proof.Proof.Gen.KernelIdeal.Launch
import proofs.«411982_j27814208209356_3_alg».proof.Proof.Gen.KernelIdeal.Points
import proofs.«411982_j27814208209356_3_alg».proof.Proof.Gen.KernelIdeal.Frame
import proofs.«411982_j27814208209356_3_alg».proof.Proof.Gen.ReferenceIdeal
import proofs.«411982_j27814208209356_3_alg».proof.Proof.Gen.ReferenceIdeal.Run
import proofs.«411982_j27814208209356_3_alg».proof.Proof.Gen.ReferenceIdeal.Read
import proofs.«411982_j27814208209356_3_alg».proof.Proof.Gen.Pre_finite_inputs
import proofs.«411982_j27814208209356_3_alg».proof.Proof.Attention
import proofs.«411982_j27814208209356_3_alg».proof.Proof.AttentionLaw
import proofs.«411982_j27814208209356_3_alg».proof.Proof.KernelRun
import proofs.«411982_j27814208209356_3_alg».proof.Proof.HostSide
import proofs.«411982_j27814208209356_3_alg».proof.Proof.Region0
import proofs.«411982_j27814208209356_3_alg».proof.Proof.Region1
import proofs.«411982_j27814208209356_3_alg».proof.Proof.RefValue
import proofs.«411982_j27814208209356_3_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem Cert.Attention

/-! ## The kernel's result array as a function of the arguments -/

section KernelValue

open Cert.KernelIdeal Cert.KernelIdeal.Gen

variable (m : (ℓ : Loc nD τ sig) → Buf (Elt Ideal) ℓ) (ρ : Dev nD → PrngReg)

/-- After the first stage the query array is the scaled query projection of the arguments. -/
theorem stage1_q (c : Dev nD) :
    V2 m ρ c main_v4_0 = qArr (m ((c.tc : Thread nD τ).loc main_arg0)) (repack (m ((c.tc : Thread nD τ).loc main_arg1))) :=
  (W2_arr m ρ c 2).trans ((Cert.KernelIdeal.Region0.final_q (V1 m ρ) c).trans
    (by rw [Cert.KernelIdeal.HostSide.entry_act, Cert.KernelIdeal.HostSide.entry_weight]))

/-- … the key array the key projection, -/
theorem stage1_k (c : Dev nD) :
    V2 m ρ c main_v4_1 = kArr (m ((c.tc : Thread nD τ).loc main_arg0)) (repack (m ((c.tc : Thread nD τ).loc main_arg1))) :=
  (W2_arr m ρ c 3).trans ((Cert.KernelIdeal.Region0.final_k (V1 m ρ) c).trans
    (by rw [Cert.KernelIdeal.HostSide.entry_act, Cert.KernelIdeal.HostSide.entry_weight]))

/-- … and the value array the value projection. -/
theorem stage1_v (c : Dev nD) :
    V2 m ρ c main_v4_2 = vArr (m ((c.tc : Thread nD τ).loc main_arg0)) (repack (m ((c.tc : Thread nD τ).loc main_arg1))) :=
  (W2_arr m ρ c 4).trans ((Cert.KernelIdeal.Region0.final_v (V1 m ρ) c).trans
    (by rw [Cert.KernelIdeal.HostSide.entry_act, Cert.KernelIdeal.HostSide.entry_weight]))

/-- The result array at the end of the run is the first arrangement of the attention average of the arguments. -/
theorem kernel_result (c : Dev nD) :
    W3 m ρ c (Proc.devRef .tc main_v5)
      = kernelValue (m ((c.tc : Thread nD τ).loc main_arg0)) (m ((c.tc : Thread nD τ).loc main_arg1)) :=
  (W3_arr m ρ c 3).trans ((Cert.KernelIdeal.Region1.final_out (V2 m ρ) c).trans
    (by rw [stage1_q, stage1_k, stage1_v]; rfl))

end KernelValue

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end; the kernel's result is `kernelValue` of its arguments, the reference's `refValue` of its own, the
    arguments agree, and under the precondition they are real-valued, where the two arrangements are one function. -/
theorem algebraic : Cert.algebraic_KernelIdeal_ReferenceIdeal := by
  intro m ρ m' ρ' hpre hagree
  refine ⟨fun c => kernelValue (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono (fun r h c => ⟨(h c).1.trans (kernel_result m ρ c), (h c).2⟩)
      (Cert.KernelIdeal.Run.run_main (F := Ideal) m ρ)
  · refine (θ_run Cert.ReferenceIdeal.defs _ _).mono (fun r h c => ⟨(h c).1.trans ?_, (h c).2⟩)
      (Cert.ReferenceIdeal.Value.run (F := Ideal) m' ρ')
    obtain ⟨hz, hw⟩ := Cert.Finite.real_of_pre _ _ (hpre c)
    rw [Cert.ReferenceIdeal.Read.val_main_v27_eq, Cert.ReferenceIdeal.RefValue.ref_eq, (hagree c).1, (hagree c).2]
    exact (kernelValue_eq_refValue _ _ hz hw).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
